-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8x2816x2048 : Shape := ⟨3, ![8, 2816, 2048]⟩
abbrev S8x2048x1408 : Shape := ⟨3, ![8, 2048, 1408]⟩
abbrev S4096x2 : Shape := ⟨2, ![4096, 2]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x2816x2048 : S_.BroadcastsInDim S8x2816x2048 (![] : Fin 0 → Fin S8x2816x2048.rank)
  reducesTo_S8x2816x2048_S_d0_1_2 : S8x2816x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_arg4 : IVec S4096x2 32) (main_v13 : IVec S_ 1) (main_v16 : IVec S4096x2 1) : IVec S_ 1 :=
  let main_c_5 : IVec S_ 1 := constantI S_ 1 1#1
  let main_v17 : IVec S_ 1 := (fun x v => Host.reduce IntOp.andi x v reducesTo_S4096x2_S_d0_1 h_S_) main_v16 main_c_5
  let main_v18 : IVec S_ 1 := andi main_v13 main_v17
  let main_c_6 : IVec S_ 32 := constantI S_ 32 0#32
  let main_v19 : IVec S4096x2 32 := broadcastInDim S4096x2 ![] bcast_S_S4096x2 main_c_6
  let main_v20 : IVec S4096x2 1 := cmpi .sge main_arg4 main_v19
  let main_c_7 : IVec S_ 32 := constantI S_ 32 8#32
  let main_v21 : IVec S4096x2 32 := broadcastInDim S4096x2 ![] bcast_S_S4096x2 main_c_7
  let main_v22 : IVec S4096x2 1 := cmpi .slt main_arg4 main_v21
  let main_v23 : IVec S4096x2 1 := andi main_v20 main_v22
  let main_c_8 : IVec S_ 1 := constantI S_ 1 1#1
  let main_v24 : IVec S_ 1 := (fun x v => Host.reduce IntOp.andi x v reducesTo_S4096x2_S_d0_1 h_S_) main_v23 main_c_8
  let main_v25 : IVec S_ 1 := andi main_v18 main_v24
  main_v25

def fn {F : FTy → Type} [FloatOps F] (main_arg0 : FVec F S4096x2048 .f32) (main_arg1 : FVec F S8x2816x2048 .f32) (main_arg2 : FVec F S8x2048x1408 .f32) (main_arg3 : FVec F S4096x2 .f32) (main_arg4 : IVec S4096x2 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8x2816x2048 .f32 := Host.absf main_arg1
  let main_cst_0 : FVec F S_ .f32 := constant S_ .f32 0x7F800000#32
  let main_v5 : FVec F S8x2816x2048 .f32 := broadcastInDim S8x2816x2048 ![] bcast_S_S8x2816x2048 main_cst_0
  let main_v6 : IVec S8x2816x2048 1 := cmpf .olt main_v4 main_v5
  let main_c_1 : IVec S_ 1 := constantI S_ 1 1#1
  let main_v7 : IVec S_ 1 := (fun x v => Host.reduce IntOp.andi x v reducesTo_S8x2816x2048_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S4096x2 .f32 := Host.absf main_arg3
  let main_cst_4 : FVec F S_ .f32 := constant S_ .f32 0x7F800000#32
  let main_v15 : FVec F S4096x2 .f32 := broadcastInDim S4096x2 ![] bcast_S_S4096x2 main_cst_4
  let main_v16 : IVec S4096x2 1 := cmpf .olt main_v14 main_v15
  fn_part1 (F := F) main_arg4 main_v13 main_v16
-- ==== Kernel.lean ====
abbrev S4096x2048 : Shape := ⟨2, ![4096, 2048]⟩
abbrev S8x2816x2048 : Shape := ⟨3, ![8, 2816, 2048]⟩
abbrev S8x2048x1408 : Shape := ⟨3, ![8, 2048, 1408]⟩
abbrev S4096x2 : Shape := ⟨2, ![4096, 2]⟩
abbrev S128x2048 : Shape := ⟨2, ![128, 2048]⟩
abbrev S1x2816x2048 : Shape := ⟨3, ![1, 2816, 2048]⟩
abbrev S1x2048x1408 : Shape := ⟨3, ![1, 2048, 1408]⟩
abbrev S128x2 : Shape := ⟨2, ![128, 2]⟩
abbrev S2816x2048 : Shape := ⟨2, ![2816, 2048]⟩
abbrev S2048x1408 : Shape := ⟨2, ![2048, 1408]⟩
abbrev S128x2816 : Shape := ⟨2, ![128, 2816]⟩
abbrev S128x1408 : Shape := ⟨2, ![128, 1408]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S8x2816x2048, .f32⟩
  | .hbm, ⟨2, _⟩ => ⟨S8x2048x1408, .f32⟩
  | .hbm, ⟨3, _⟩ => ⟨S4096x2, .f32⟩
  | .hbm, ⟨4, _⟩ => ⟨S4096x2, .i32⟩
  | .hbm, ⟨5, _⟩ => ⟨S4096x2048, .bf16⟩
  | .hbm, ⟨6, _⟩ => ⟨S8x2816x2048, .bf16⟩
  | .hbm, ⟨7, _⟩ => ⟨S8x2048x1408, .bf16⟩
  | .hbm, ⟨8, _⟩ => ⟨S4096x2048, .f32⟩
  | .local _ .vmem, ⟨0, _⟩ => ⟨S128x2048, .bf16⟩
  | .local _ .vmem, ⟨1, _⟩ => ⟨S128x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S128x2, .i32⟩
  | .local _ .vmem, ⟨7, _⟩ => ⟨S128x2, .i32⟩
  | .local _ .vmem, ⟨8, _⟩ => ⟨S128x2, .f32⟩
  | .local _ .vmem, ⟨9, _⟩ => ⟨S128x2, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2816x2048_S1x2816x2048_0_0_0 : ∀ a, (![0, 0, 0] : Fin 3 → Nat) a + S1x2816x2048.size a ≤ S1x2816x2048.size a
  h_S1x2816x2048 : 0 < S1x2816x2048.numel
  shapeCasts_S1x2816x2048_S2816x2048 : S1x2816x2048.ShapeCasts S2816x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  slices_S128x2816_o0_0_S128x1408 : S128x2816.Slices ![0, 0] S128x1408
  slices_S128x2816_o0_1408_S128x1408 : S128x2816.Slices ![0, 1408] S128x1408
  inb_S128x2_S128x2_0_0 : ∀ a, (![0, 0] : Fin 2 → Nat) a + S128x2.size a ≤ S128x2.size a
  h_S128x2 : 0 < S128x2.numel
  reduces_S128x2_S128 : S128x2.Reduces [1] S128
  shapeCasts_S128_S128x1 : S128.ShapeCasts S128x1
  broadcasts_S128x1_S128x2048 : S128x1.Broadcasts S128x2048
  dot_S128x2048_S2816x2048_S128x2816_1_1_0_0_n_n_wf : DotDims.WF S128x2048 S2816x2048 S128x2816 [1] [1] [0] [0] [] []
  dot_S128x1408_S2048x1408_S128x2048_1_1_0_0_n_n_wf : DotDims.WF S128x1408 S2048x1408 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2816x2048.size a ≤ S8x2816x2048.size a
  hwx0_1 : ∀ i : grid0.Coords, EltTy.bits .bf16 = 32 ∨ (Rect.block (s := S8x2816x2048) S1x2816x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S4096x2.size a
  hwx0_3 : ∀ i : grid0.Coords, EltTy.bits .i32 = 32 ∨ (Rect.block (s := S4096x2) S128x2.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2.size a ≤ S4096x2.size a
  hwx0_4 : ∀ i : grid0.Coords, EltTy.bits .f32 = 32 ∨ (Rect.block (s := S4096x2) S128x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)

variable [Facts₀]

def dot_S128x2048_S2816x2048_S128x2816_1_1_0_0_n_n : DotDims S128x2048 S2816x2048 S128x2816 where
  lhsContracting := [1]
  rhsContracting := [1]
  lhsNonContracting := [0]
  rhsNonContracting := [0]
  lhsBatch := []
  rhsBatch := []
  wf := dot_S128x2048_S2816x2048_S128x2816_1_1_0_0_n_n_wf
def dot_S128x1408_S2048x1408_S128x2048_1_1_0_0_n_n : DotDims S128x1408 S2048x1408 S128x2048 where
  lhsContracting := [1]
  rhsContracting := [1]
  lhsNonContracting := [0]
  rhsNonContracting := [0]
  lhsBatch := []
  rhsBatch := []
  wf := dot_S128x1408_S2048x1408_S128x2048_1_1_0_0_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2816x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8x2816x2048 : Shape := ⟨3, ![8, 2816, 2048]⟩
abbrev S8x2048x1408 : Shape := ⟨3, ![8, 2048, 1408]⟩
abbrev S4096x2 : Shape := ⟨2, ![4096, 2]⟩
abbrev S8x2816x4096 : Shape := ⟨3, ![8, 2816, 4096]⟩
abbrev S8x4096x2816 : Shape := ⟨3, ![8, 4096, 2816]⟩
abbrev S8x4096x1408 : Shape := ⟨3, ![8, 4096, 1408]⟩
abbrev S_ : Shape := ⟨0, ![]⟩
abbrev S8x4096x2048 : Shape := ⟨3, ![8, 4096, 2048]⟩
abbrev S4096x8x2048 : Shape := ⟨3, ![4096, 8, 2048]⟩
abbrev S4096x2x1 : Shape := ⟨3, ![4096, 2, 1]⟩
abbrev S1 : Shape := ⟨1, ![1]⟩
abbrev S1x1x1 : Shape := ⟨3, ![1, 1, 1]⟩
abbrev S4096x2x2048 : Shape := ⟨3, ![4096, 2, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2816x2048, .f32⟩
  | .hbm, ⟨2, _⟩ => ⟨S8x2048x1408, .f32⟩
  | .hbm, ⟨3, _⟩ => ⟨S4096x2, .f32⟩
  | .hbm, ⟨4, _⟩ => ⟨S4096x2, .i32⟩
  | .hbm, ⟨5, _⟩ => ⟨S8x2816x4096, .f32⟩
  | .hbm, ⟨6, _⟩ => ⟨S8x4096x2816, .f32⟩
  | .hbm, ⟨7, _⟩ => ⟨S8x4096x1408, .f32⟩
  | .hbm, ⟨8, _⟩ => ⟨S8x4096x1408, .f32⟩
  | .hbm, ⟨9, _⟩ => ⟨S8x4096x1408, .f32⟩
  | .hbm, ⟨10, _⟩ => ⟨S8x4096x1408, .f32⟩
  | .hbm, ⟨11, _⟩ => ⟨S_, .f32⟩
  | .hbm, ⟨12, _⟩ => ⟨S8x4096x1408, .f32⟩
  | .hbm, ⟨13, _⟩ => ⟨S8x4096x1408, .f32⟩
  | .hbm, ⟨14, _⟩ => ⟨S_, .f32⟩
  | .hbm, ⟨15, _⟩ => ⟨S8x4096x1408, .f32⟩
  | .hbm, ⟨16, _⟩ => ⟨S8x4096x1408, .f32⟩
  | .hbm, ⟨17, _⟩ => ⟨S8x4096x1408, .f32⟩
  | .hbm, ⟨18, _⟩ => ⟨S8x4096x1408, .f32⟩
  | .hbm, ⟨19, _⟩ => ⟨S8x4096x2048, .f32⟩
  | .hbm, ⟨20, _⟩ => ⟨S4096x8x2048, .f32⟩
  | .hbm, ⟨21, _⟩ => ⟨S4096x2x1, .i32⟩
  | .hbm, ⟨22, _⟩ => ⟨S_, .i32⟩
  | .hbm, ⟨23, _⟩ => ⟨S4096x2x1, .i32⟩
  | .hbm, ⟨24, _⟩ => ⟨S4096x2x1, .i1⟩
  | .hbm, ⟨25, _⟩ => ⟨S_, .i32⟩
  | .hbm, ⟨26, _⟩ => ⟨S4096x2x1, .i32⟩
  | .hbm, ⟨27, _⟩ => ⟨S4096x2x1, .i32⟩
  | .hbm, ⟨28, _⟩ => ⟨S4096x2x1, .i32⟩
  | .hbm, ⟨29, _⟩ => ⟨S1, .i32⟩
  | .hbm, ⟨30, _⟩ => ⟨S_, .i32⟩
  | .hbm, ⟨31, _⟩ => ⟨S4096x2x1, .i32⟩
  | .hbm, ⟨32, _⟩ => ⟨S4096x2x1, .i1⟩
  | .hbm, ⟨33, _⟩ => ⟨S1x1x1, .i32⟩
  | .hbm, ⟨34, _⟩ => ⟨S4096x2x1, .i32⟩
  | .hbm, ⟨35, _⟩ => ⟨S4096x2x1, .i1⟩
  | .hbm, ⟨36, _⟩ => ⟨S4096x2x1, .i1⟩
  | .hbm, ⟨37, _⟩ => ⟨S_, .i1⟩
  | .hbm, ⟨38, _⟩ => ⟨S4096x2, .i1⟩
  | .hbm, ⟨39, _⟩ => ⟨S4096x2x2048, .f32⟩
  | .hbm, ⟨40, _⟩ => ⟨S4096x2x2048, .i1⟩
  | .hbm, ⟨41, _⟩ => ⟨S_, .f32⟩
  | .hbm, ⟨42, _⟩ => ⟨S4096x2x2048, .f32⟩
  | .hbm, ⟨43, _⟩ => ⟨S4096x2x2048, .f32⟩
  | .hbm, ⟨44, _⟩ => ⟨S4096x2x1, .f32⟩
  | .hbm, ⟨45, _⟩ => ⟨S4096x2x2048, .f32⟩
  | .hbm, ⟨46, _⟩ => ⟨S4096x2x2048, .f32⟩
  | .hbm, ⟨47, _⟩ => ⟨S_, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_c_2 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_c_3 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩

abbrev nD : Nat := 1
abbrev τ : Topo := Topo.v7x

variable {F : FTy → Type} [FloatOps F]

class Facts₀ : Prop where
  transposes_S8x2816x4096_S8x4096x2816_0_2_1 : S8x2816x4096.Transposes [0, 2, 1] S8x4096x2816
  slices_S8x4096x2816_S8x4096x1408_0_0_0 : S8x4096x2816.Slices ![0, 0, 0] S8x4096x1408
  slices_S8x4096x2816_S8x4096x1408_0_0_1408 : S8x4096x2816.Slices ![0, 0, 1408] S8x4096x1408
  bcast_S_S8x4096x1408 : S_.BroadcastsInDim S8x4096x1408 (![] : Fin 0 → Fin S8x4096x1408.rank)
  transposes_S8x4096x2048_S4096x8x2048_1_0_2 : S8x4096x2048.Transposes [1, 0, 2] S4096x8x2048
  bcast_S4096x2_S4096x2x1_0_1 : S4096x2.BroadcastsInDim S4096x2x1 (![0, 1] : Fin 2 → Fin S4096x2x1.rank)
  bcast_S_S4096x2x1 : S_.BroadcastsInDim S4096x2x1 (![] : Fin 0 → Fin S4096x2x1.rank)
  bcast_S1_S1x1x1_2 : S1.BroadcastsInDim S1x1x1 (![2] : Fin 1 → Fin S1x1x1.rank)
  bcast_S1x1x1_S4096x2x1_0_1_2 : S1x1x1.BroadcastsInDim S4096x2x1 (![0, 1, 2] : Fin 3 → Fin S4096x2x1.rank)
  reducesTo_S4096x2x1_S4096x2_d2 : S4096x2x1.ReducesTo [2] S4096x2
  h_S_ : 0 < S_.numel
  bcast_S4096x2_S4096x2x2048_0_1 : S4096x2.BroadcastsInDim S4096x2x2048 (![0, 1] : Fin 2 → Fin S4096x2x2048.rank)
  bcast_S_S4096x2x2048 : S_.BroadcastsInDim S4096x2x2048 (![] : Fin 0 → Fin S4096x2x2048.rank)
  bcast_S4096x2x1_S4096x2x2048_0_1_2 : S4096x2x1.BroadcastsInDim S4096x2x2048 (![0, 1, 2] : Fin 3 → Fin S4096x2x2048.rank)
  reducesTo_S4096x2x2048_S4096x2048_d1 : S4096x2x2048.ReducesTo [1] S4096x2048
  dot_S8x2816x2048_S4096x2048_S8x2816x4096_2_1_01_0_n_n_wf : DotDims.WF S8x2816x2048 S4096x2048 S8x2816x4096 [2] [1] [0, 1] [0] [] []
  dot_S8x4096x1408_S8x2048x1408_S8x4096x2048_2_2_1_1_0_0_wf : DotDims.WF S8x4096x1408 S8x2048x1408 S8x4096x2048 [2] [2] [1] [1] [0] [0]
  gather_S4096x8x2048_S4096x2x1_S4096x2x2048_2_1_0_0_1_2_112048_wf : GatherDims.WF S4096x8x2048 S4096x2x1 S4096x2x2048 [2] [1] [0] [1] [0] 2 ![1, 1, 2048]

variable [Facts₀]

def dot_S8x2816x2048_S4096x2048_S8x2816x4096_2_1_01_0_n_n : DotDims S8x2816x2048 S4096x2048 S8x2816x4096 where
  lhsContracting := [2]
  rhsContracting := [1]
  lhsNonContracting := [0, 1]
  rhsNonContracting := [0]
  lhsBatch := []
  rhsBatch := []
  wf := dot_S8x2816x2048_S4096x2048_S8x2816x4096_2_1_01_0_n_n_wf
def dot_S8x4096x1408_S8x2048x1408_S8x4096x2048_2_2_1_1_0_0 : DotDims S8x4096x1408 S8x2048x1408 S8x4096x2048 where
  lhsContracting := [2]
  rhsContracting := [2]
  lhsNonContracting := [1]
  rhsNonContracting := [1]
  lhsBatch := [0]
  rhsBatch := [0]
  wf := dot_S8x4096x1408_S8x2048x1408_S8x4096x2048_2_2_1_1_0_0_wf
def gather_S4096x8x2048_S4096x2x1_S4096x2x2048_2_1_0_0_1_2_112048 : GatherDims S4096x8x2048 S4096x2x1 S4096x2x2048 where
  offsetDims := [2]
  collapsedSliceDims := [1]
  operandBatchingDims := [0]
  startIndicesBatchingDims := [0]
  startIndexMap := [1]
  indexVectorDim := 2
  sliceSizes := ![1, 1, 2048]
  wf := gather_S4096x8x2048_S4096x2x1_S4096x2x2048_2_1_0_0_1_2_112048_wf

class Facts : Prop extends Facts₀ where

variable [Facts]
-- ==== Proof.MoeSpec.lean ====
/-
  The mathematics of the certificate, free of both programs: a mixture of eight gated two-layer experts over 4096 token
  rows, one row at a time. For a token row x (2048 entries) and expert e with weights W1 (2816 x 2048) and W2 (2048 x 1408):
    h (n)  = the sum over k of x k * W1 n k                       (first product, 2816 entries)
    a (j)  = silu (h j) * h (1408 + j),  silu t = t * logistic t  (gated activation, 1408 entries)
    y (c)  = the sum over j of a j * W2 c j                       (second product, 2048 entries).
  The routing of a row is two expert numbers (32-bit words) with two weights.
  One side of the certificate adds, over the eight experts in order, y_e times the total weight of the slots that name e;
  the other adds, over the two slots, the output of the expert the slot names times the slot's weight.
-/
import Idealize.ShloMosaic.PureOps.Ideal
import Idealize.ShloMosaic.Lib.ValueIdx

noncomputable section

open scoped BigOperators

namespace Cert.Moe

open Idealize.ShloMosaic Idealize.ShloMosaic.ValueIdx

/-- The column of the first product that holds the gate for activation column `j`. -/
def gateIx (j : Fin 1408) : Fin 2816 := ⟨j.val, by have := j.isLt; omega⟩
/-- The column of the first product that holds the linear factor for activation column `j`. -/
def upIx (j : Fin 1408) : Fin 2816 := ⟨1408 + j.val, by have := j.isLt; omega⟩

/-- `silu t = t * 1 / (1 + exp (-t))` on the extended reals. -/
def silu (t : EReal) : EReal := t * Ideal.logistic t

/-- One row's first product against one expert's first weight matrix (stored [out, in]). -/
def h1row (x : Fin 2048 → EReal) (w1e : Fin 2816 → Fin 2048 → EReal) (n : Fin 2816) : EReal :=
  ∑ k : Fin 2048, x k * w1e n k

/-- One row's gated activation for one expert. -/
def actrow (x : Fin 2048 → EReal) (w1e : Fin 2816 → Fin 2048 → EReal) (j : Fin 1408) : EReal :=
  silu (h1row x w1e (gateIx j)) * h1row x w1e (upIx j)

/-- One row's output of one expert: the activation against the second weight matrix (stored [out, in]). -/
def yrow (x : Fin 2048 → EReal) (w1e : Fin 2816 → Fin 2048 → EReal) (w2e : Fin 2048 → Fin 1408 → EReal) (c : Fin 2048) : EReal :=
  ∑ j : Fin 1408, actrow x w1e j * w2e c j

/-- The total weight one row gives expert number `e`: zero plus the weights of the slots whose word is `e`. -/
def wrow (wt : Fin 2 → EReal) (id : Fin 2 → BitVec 32) (e : Nat) : EReal :=
  0 + ∑ s : Fin 2, if id s = BitVec.ofNat 32 e then wt s else 0

/-- The expert a slot's word names, for a word in range (the word modulo eight otherwise, never used). -/
def expertOf (b : BitVec 32) : Fin 8 := ⟨b.toNat % 8, Nat.mod_lt _ (by decide)⟩

/-- EXPERT BY EXPERT: zero plus, over the eight experts in order, the expert's output times the row's weight for it. -/
def outKrow (x : Fin 2048 → EReal) (w1 : Fin 8 → Fin 2816 → Fin 2048 → EReal) (w2 : Fin 8 → Fin 2048 → Fin 1408 → EReal)
    (wt : Fin 2 → EReal) (id : Fin 2 → BitVec 32) (c : Fin 2048) : EReal :=
  0 + ∑ e : Fin 8, yrow x (w1 e) (w2 e) c * wrow wt id e.val

/-- SLOT BY SLOT: zero plus, over the two slots, the output of the expert the slot names times the slot's weight. -/
def outRrow (x : Fin 2048 → EReal) (w1 : Fin 8 → Fin 2816 → Fin 2048 → EReal) (w2 : Fin 8 → Fin 2048 → Fin 1408 → EReal)
    (wt : Fin 2 → EReal) (id : Fin 2 → BitVec 32) (c : Fin 2048) : EReal :=
  0 + ∑ s : Fin 2, yrow x (w1 (expertOf (id s))) (w2 (expertOf (id s))) c * wt s

/-! ## The same over the five argument arrays -/

abbrev SHid : Shape := ⟨2, ![4096, 2048]⟩
abbrev SW1 : Shape := ⟨3, ![8, 2816, 2048]⟩
abbrev SW2 : Shape := ⟨3, ![8, 2048, 1408]⟩
abbrev SRt : Shape := ⟨2, ![4096, 2]⟩

/-- The expert-by-expert result as one function of the five argument arrays. -/
def OutK (A0 : SHid.Idx → EReal) (A1 : SW1.Idx → EReal) (A2 : SW2.Idx → EReal) (A3 : SRt.Idx → EReal) (A4 : SRt.Idx → BitVec 32) :
    SHid.Idx → EReal := fun i =>
  outKrow (fun k => A0 (ix2 (i 0) k)) (fun e n k => A1 (ix3 e n k)) (fun e c j => A2 (ix3 e c j))
    (fun s => A3 (ix2 (i 0) s)) (fun s => A4 (ix2 (i 0) s)) (i 1)

/-- The slot-by-slot result as one function of the five argument arrays. -/
def OutR (A0 : SHid.Idx → EReal) (A1 : SW1.Idx → EReal) (A2 : SW2.Idx → EReal) (A3 : SRt.Idx → EReal) (A4 : SRt.Idx → BitVec 32) :
    SHid.Idx → EReal := fun i =>
  outRrow (fun k => A0 (ix2 (i 0) k)) (fun e n k => A1 (ix3 e n k)) (fun e c j => A2 (ix3 e c j))
    (fun s => A3 (ix2 (i 0) s)) (fun s => A4 (ix2 (i 0) s)) (i 1)

/-- The domain of the claim: every float entry is a real number and every expert word is one of 0 … 7 (read signed). -/
structure InDomain (A0 : SHid.Idx → EReal) (A1 : SW1.Idx → EReal) (A2 : SW2.Idx → EReal) (A3 : SRt.Idx → EReal) (A4 : SRt.Idx → BitVec 32) : Prop where
  hid_real : ∀ i, ∃ r : ℝ, A0 i = (r : EReal)
  w1_real : ∀ i, ∃ r : ℝ, A1 i = (r : EReal)
  w2_real : ∀ i, ∃ r : ℝ, A2 i = (r : EReal)
  wts_real : ∀ i, ∃ r : ℝ, A3 i = (r : EReal)
  ids_range : ∀ i, 0 ≤ (A4 i).toInt ∧ (A4 i).toInt < 8

end Cert.Moe

end
-- ==== Proof.MoeLaw.lean ====
/-
  The law that joins the two sides: for a row whose entries are real numbers and whose two expert words are in 0 … 7,
  adding expert by expert (each expert's output times the total weight of the slots naming it) gives what adding slot by slot
  (the named expert's output times the slot's weight) gives.
-/
import proofs.«402619_j34265249087924_1_alg».proof.Proof.MoeSpec

noncomputable section

open scoped BigOperators

namespace Cert.Moe

open Idealize.ShloMosaic Idealize.ShloMosaic.ValueIdx

/-! ## Finite sums and products of real numbers stay real -/

/-- A finite sum of real numbers, read in the extended reals, is the real sum read in the extended reals. -/
theorem coe_sum_real {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The first product of a real row against real weights is a real number: the real sum of the real products. -/
theorem h1row_real (x : Fin 2048 → EReal) (w1e : Fin 2816 → Fin 2048 → EReal)
    (hx : ∀ k, ∃ r : ℝ, x k = (r : EReal)) (hw : ∀ n k, ∃ r : ℝ, w1e n k = (r : EReal)) (n : Fin 2816) :
    ∃ r : ℝ, h1row x w1e n = (r : EReal) := by
  choose xr hxr using hx
  choose wr hwr using hw
  refine ⟨∑ k : Fin 2048, xr k * wr n k, ?_⟩
  unfold h1row
  rw [← coe_sum_real]
  refine Finset.sum_congr rfl (fun k _ => ?_)
  rw [hxr, hwr, EReal.coe_mul]

/-- The gated activation of a real row is real: silu of a real `g` is `g * (1 + exp (-g))⁻¹`, times a real. -/
theorem actrow_real (x : Fin 2048 → EReal) (w1e : Fin 2816 → Fin 2048 → EReal)
    (hx : ∀ k, ∃ r : ℝ, x k = (r : EReal)) (hw : ∀ n k, ∃ r : ℝ, w1e n k = (r : EReal)) (j : Fin 1408) :
    ∃ r : ℝ, actrow x w1e j = (r : EReal) := by
  obtain ⟨g, hg⟩ := h1row_real x w1e hx hw (gateIx j)
  obtain ⟨p, hp⟩ := h1row_real x w1e hx hw (upIx j)
  refine ⟨(g * (1 + Real.exp (-g))⁻¹) * p, ?_⟩
  unfold actrow silu
  rw [hg, hp, Ideal.logistic_coe, ← EReal.coe_mul, ← EReal.coe_mul]

/-- One expert's output for a real row and real weights is a real number. -/
theorem yrow_real (x : Fin 2048 → EReal) (w1e : Fin 2816 → Fin 2048 → EReal) (w2e : Fin 2048 → Fin 1408 → EReal)
    (hx : ∀ k, ∃ r : ℝ, x k = (r : EReal)) (hw1 : ∀ n k, ∃ r : ℝ, w1e n k = (r : EReal))
    (hw2 : ∀ c j, ∃ r : ℝ, w2e c j = (r : EReal)) (c : Fin 2048) :
    ∃ r : ℝ, yrow x w1e w2e c = (r : EReal) := by
  have ha := actrow_real x w1e hx hw1
  choose a ha using ha
  choose v hv using hw2
  refine ⟨∑ j : Fin 1408, a j * v c j, ?_⟩
  unfold yrow
  rw [← coe_sum_real]
  refine Finset.sum_congr rfl (fun j _ => ?_)
  rw [ha, hv, EReal.coe_mul]

/-! ## A word in range names its expert -/

/-- A 32-bit word whose signed reading is in 0 … 7 has unsigned reading below eight. -/
theorem toNat_lt_of_range (b : BitVec 32) (h : 0 ≤ b.toInt ∧ b.toInt < 8) : b.toNat < 8 := by
  have hlt := b.isLt
  rw [BitVec.toInt_eq_toNat_cond] at h
  split_ifs at h <;> omega

/-- For a word in range, being the word of expert number `e` is the same as naming expert `e`. -/
theorem eq_ofNat_iff (b : BitVec 32) (h : 0 ≤ b.toInt ∧ b.toInt < 8) (e : Fin 8) :
    b = BitVec.ofNat 32 e.val ↔ expertOf b = e := by
  have hb := toNat_lt_of_range b h
  have he := e.isLt
  constructor
  · intro hbe
    apply Fin.ext
    show b.toNat % 8 = e.val
    rw [hbe, BitVec.toNat_ofNat]
    omega
  · intro hbe
    have hm : b.toNat % 8 = e.val := congrArg Fin.val hbe
    apply BitVec.eq_of_toNat_eq
    rw [BitVec.toNat_ofNat]
    omega

/-! ## The law on one row -/

/-- Over the reals: the sum over the eight experts of `y e` times the weights of the slots naming `e` is the sum over the
slots of `y` at the named expert times the slot's weight (exchange the two sums; each slot names exactly one expert). -/
theorem real_law (y : Fin 8 → ℝ) (u : Fin 2 → ℝ) (a : Fin 2 → Fin 8) :
    (∑ e : Fin 8, y e * ∑ s : Fin 2, (if a s = e then u s else 0)) = ∑ s : Fin 2, y (a s) * u s := by
  simp_rw [Finset.mul_sum]
  rw [Finset.sum_comm]
  refine Finset.sum_congr rfl (fun s _ => ?_)
  simp_rw [mul_ite, mul_zero]
  rw [Finset.sum_ite_eq]
  simp

/-- THE LAW, on one row: real entries and expert words in 0 … 7 make the two ways of adding agree. -/
theorem row_law (x : Fin 2048 → EReal) (w1 : Fin 8 → Fin 2816 → Fin 2048 → EReal) (w2 : Fin 8 → Fin 2048 → Fin 1408 → EReal)
    (wt : Fin 2 → EReal) (id : Fin 2 → BitVec 32) (c : Fin 2048)
    (hx : ∀ k, ∃ r : ℝ, x k = (r : EReal)) (hw1 : ∀ e n k, ∃ r : ℝ, w1 e n k = (r : EReal))
    (hw2 : ∀ e c j, ∃ r : ℝ, w2 e c j = (r : EReal)) (hwt : ∀ s, ∃ r : ℝ, wt s = (r : EReal))
    (hid : ∀ s, 0 ≤ (id s).toInt ∧ (id s).toInt < 8) :
    outKrow x w1 w2 wt id c = outRrow x w1 w2 wt id c := by
  have hy : ∀ e : Fin 8, ∃ r : ℝ, yrow x (w1 e) (w2 e) c = (r : EReal) :=
    fun e => yrow_real x (w1 e) (w2 e) hx (hw1 e) (hw2 e) c
  choose yr hyr using hy
  choose u hu using hwt
  -- the total weight of expert `e` is the real sum of the weights of the slots naming `e`
  have hw : ∀ e : Fin 8,
      wrow wt id e.val = ((∑ s : Fin 2, (if expertOf (id s) = e then u s else 0) : ℝ) : EReal) := by
    intro e
    unfold wrow
    rw [zero_add, ← coe_sum_real]
    refine Finset.sum_congr rfl (fun s _ => ?_)
    rw [hu s]
    by_cases hs : expertOf (id s) = e
    · rw [if_pos hs, if_pos ((eq_ofNat_iff (id s) (hid s) e).2 hs)]
    · rw [if_neg hs, if_neg (fun hh => hs ((eq_ofNat_iff (id s) (hid s) e).1 hh)), EReal.coe_zero]
  have hK : outKrow x w1 w2 wt id c
      = ((∑ e : Fin 8, yr e * ∑ s : Fin 2, (if expertOf (id s) = e then u s else 0) : ℝ) : EReal) := by
    unfold outKrow
    rw [zero_add, ← coe_sum_real]
    refine Finset.sum_congr rfl (fun e _ => ?_)
    rw [hyr e, hw e, EReal.coe_mul]
  have hR : outRrow x w1 w2 wt id c = ((∑ s : Fin 2, yr (expertOf (id s)) * u s : ℝ) : EReal) := by
    unfold outRrow
    rw [zero_add, ← coe_sum_real]
    refine Finset.sum_congr rfl (fun s _ => ?_)
    rw [hyr, hu, EReal.coe_mul]
  rw [hK, hR, real_law yr u (fun s => expertOf (id s))]

/-- THE LAW, on the arrays: in the domain the expert-by-expert result is the slot-by-slot result. -/
theorem law (A0 : SHid.Idx → EReal) (A1 : SW1.Idx → EReal) (A2 : SW2.Idx → EReal) (A3 : SRt.Idx → EReal) (A4 : SRt.Idx → BitVec 32)
    (h : InDomain A0 A1 A2 A3 A4) : OutK A0 A1 A2 A3 A4 = OutR A0 A1 A2 A3 A4 := by
  funext i
  unfold OutK OutR
  exact row_law _ _ _ _ _ _ (fun _ => h.hid_real _) (fun _ _ _ => h.w1_real _) (fun _ _ _ => h.w2_real _)
    (fun _ => h.wts_real _) (fun _ => h.ids_range _)

end Cert.Moe

end
-- ==== Proof.PreFacts.lean ====
/-
  What the precondition says of the argument arrays: every entry of the four float arrays is a real number (its absolute value is
  below plus infinity) and every expert word, read signed, is at least 0 and below 8.
-/
import proofs.«402619_j34265249087924_1_alg».proof.Pre_finite_inputs
import proofs.«402619_j34265249087924_1_alg».proof.Proof.MoeSpec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Moe

/-- The shape with no axes has exactly one index. -/
instance : Subsingleton Cert.Pre_finite_inputs.S_.Idx := ⟨fun a b => funext fun d => d.elim0⟩

/-- The f32 pattern 0x7F800000 denotes plus infinity. -/
theorem inf_pattern : Ideal.ofBits .f32 0x7F800000#32 = (⊤ : EReal) := by simp [Ideal.ofBits, Ideal.ieee]

/-- An extended real whose absolute value, the larger of x and -x, is strictly below plus infinity is a real number:
    plus infinity has absolute value plus infinity, and so has minus infinity. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_pattern] at h
  unfold Ideal.cmp at h
  induction x using EReal.rec with
  | bot => simp at h
  | coe r => exact ⟨r, rfl⟩
  | top => simp at h

/-- A 32-bit word that compares, signed, at least the word 0 and below the word 8 reads signed in 0 … 7. -/
theorem range_of_cmp (b : BitVec 32) (hge : IntOp.cmpi .sge b 0#32 = 1#1) (hlt : IntOp.cmpi .slt b 8#32 = 1#1) :
    0 ≤ b.toInt ∧ b.toInt < 8 := by
  have h1 : (0#32 : BitVec 32).toInt ≤ b.toInt := IntOp.cmpi_sge.1 hge
  have h2 : b.toInt < (8#32 : BitVec 32).toInt := IntOp.cmpi_slt.1 hlt
  have e0 : (0#32 : BitVec 32).toInt = 0 := by decide
  have e8 : (8#32 : BitVec 32).toInt = 8 := by decide
  rw [e0] at h1
  rw [e8] at h2
  exact ⟨h1, h2⟩

/-- The printed precondition, all ones, puts the five arrays in the domain of the law. -/
theorem inDomain_of_pre [Cert.Pre_finite_inputs.Facts]
    (A0 : FVec Ideal Cert.Pre_finite_inputs.S4096x2048 .f32) (A1 : FVec Ideal Cert.Pre_finite_inputs.S8x2816x2048 .f32)
    (A2 : FVec Ideal Cert.Pre_finite_inputs.S8x2048x1408 .f32) (A3 : FVec Ideal Cert.Pre_finite_inputs.S4096x2 .f32)
    (A4 : IVec Cert.Pre_finite_inputs.S4096x2 32)
    (h : Cert.Pre_finite_inputs.fn (F := Ideal) A0 A1 A2 A3 A4 = fun _ => 1#1) :
    InDomain A0 A1 A2 A3 A4 := by
  have h0 := congrFun h ValueIdx.ix0
  dsimp only [Cert.Pre_finite_inputs.fn, Cert.Pre_finite_inputs.fn_part1] at h0
  -- the conjunction of the five all-reductions, taken apart from the outside in
  obtain ⟨h0123, hids⟩ := IntOp.andi_eq_one.1 h0
  obtain ⟨h012, hwts⟩ := IntOp.andi_eq_one.1 h0123
  obtain ⟨h01, hw2⟩ := IntOp.andi_eq_one.1 h012
  obtain ⟨hhid, hw1⟩ := IntOp.andi_eq_one.1 h01
  refine ⟨fun i => ?_, fun i => ?_, fun i => ?_, fun i => ?_, fun i => ?_⟩
  · exact real_of_abs_lt_inf (A0 i) (Host.reduce_andi_all _ _ _ _ _ hhid i)
  · exact real_of_abs_lt_inf (A1 i) (Host.reduce_andi_all _ _ _ _ _ hw1 i)
  · exact real_of_abs_lt_inf (A2 i) (Host.reduce_andi_all _ _ _ _ _ hw2 i)
  · exact real_of_abs_lt_inf (A3 i) (Host.reduce_andi_all _ _ _ _ _ hwts i)
  · obtain ⟨hge, hlt⟩ := IntOp.andi_eq_one.1 (Host.reduce_andi_all _ _ _ _ _ hids i)
    exact range_of_cmp (A4 i) hge hlt

end Cert.PreFacts

end
-- ==== Proof.KPieces.lean ====
/-
  What each control case of the body leaves behind, as the body's stored values. At the first expert of a row tile the
  accumulator is stored zero and then the accumulated value over that zero; at every other expert the accumulated value over
  what the accumulator held. In both cases the output tile is a copy of the accumulator after the update.
-/
import proofs.«402619_j34265249087924_1_alg».proof.Proof.Gen.KernelIdeal.Frame
import Idealize.ShloMosaic.Lib.Pipeline.Value

set_option maxRecDepth 16384

noncomputable section

namespace Cert.KernelIdeal.KPieces

open Cert.KernelIdeal Cert.KernelIdeal.Gen Idealize.ShloMosaic Idealize.ShloMosaic.TcCoe Idealize.ShloMosaic.Tactic Idealize.SL.Sem

variable {F : FTy → Type} [FloatOps F]

/-- The zero offsets of a rank-two block, spelt as a literal, are the constant zero. -/
theorem hz : (![0, 0] : Fin 2 → Nat) = fun _ => 0 := funext fun a => by
  match a with
  | ⟨0, _⟩ => rfl
  | ⟨1, _⟩ => rfl

/-- The zero offsets of a rank-three block, spelt as a literal, are the constant zero. -/
theorem hz3 : (![0, 0, 0] : Fin 3 → Nat) = fun _ => 0 := funext fun a => by
  match a with
  | ⟨0, _⟩ => rfl
  | ⟨1, _⟩ => rfl
  | ⟨2, _⟩ => rfl

/-- Reading the whole block back after a list of stores whose last one wrote the whole block gives that last store's
    value, whatever the earlier stores were. -/
theorem readCov_cons_whole {Val : EltTy → Type} [∀ e, Nonempty (Val e)] {S : Shape} {e : EltTy} {sg : RefSig} {κ : Kind}
    {sp : Space} (v : View sg κ sp S e) {off : Fin S.rank → Nat} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  subst h
  rw [View.readCov_eq_canon_ld _ _ _ (fun y => ⟨_, List.mem_cons_self, View.mem_set_unit_zero rfl inb y⟩),
    View.canon_cons_unit_zero rfl, View.ld_unit_zero rfl]

/-- First expert of a tile: the accumulator ends at the accumulated value over the zero just stored. -/
theorem sout0_A_0_eq (c : Dev nD) (i : grid0.Coords) (arg2 : Memref sig .tc .vmem S128x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S128x2 .i32) (harg5 : arg5.IsWhole) (arg6 : Memref sig .tc .vmem S128x2 .f32) (harg6 : arg6.IsWhole) (arg7 : Memref sig .tc .vmem S128x2048 .f32) (harg7 : arg7.IsWhole) (arg8 : Memref sig .tc .vmem S128x2048 .f32) (harg8 : arg8.IsWhole) (hc0 : cond0_0 i)
    (x0 : Vec F S128x2048 .bf16) (x1 : Vec F S1x2816x2048 .bf16) (x2 : Vec F S1x2048x1408 .bf16) (x3 : Vec F S128x2 .i32) (x4 : Vec F S128x2 .f32) :
    sout0_A_0 c i arg2 harg2 arg3 harg3 arg4 harg4 arg5 harg5 arg6 harg6 arg7 harg7 arg8 harg8 hc0 x0 x1 x2 x3 x4 = k0_pay2 i x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  -- two whole-block stores, the later one first: the accumulated value over the read-back of the zero store
  rw [View.canon_cons_unit_zero (S := S128x2048) hz, View.readCov_unit_zero (S := S128x2048) _ hz]
  simp only [View.readAt_eq_ld, harg2.read_unread, harg3.read_unread, harg4.read_unread, harg5.read_unread,
    harg6.read_unread, View.ld_unit_zero (S := S128x2048) hz, View.ld_unit_zero (S := S128x2) hz,
    View.ld_unit_zero (S := S1x2816x2048) hz3, View.ld_unit_zero (S := S1x2048x1408) hz3]

/-- First expert of a tile: the output tile ends at the same value. -/
theorem out0_A_5_eq (c : Dev nD) (i : grid0.Coords) (arg2 : Memref sig .tc .vmem S128x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S128x2 .i32) (harg5 : arg5.IsWhole) (arg6 : Memref sig .tc .vmem S128x2 .f32) (harg6 : arg6.IsWhole) (arg7 : Memref sig .tc .vmem S128x2048 .f32) (harg7 : arg7.IsWhole) (arg8 : Memref sig .tc .vmem S128x2048 .f32) (harg8 : arg8.IsWhole) (hc0 : cond0_0 i)
    (x0 : Vec F S128x2048 .bf16) (x1 : Vec F S1x2816x2048 .bf16) (x2 : Vec F S1x2048x1408 .bf16) (x3 : Vec F S128x2 .i32) (x4 : Vec F S128x2 .f32) :
    out0_A_5 c i arg2 harg2 arg3 harg3 arg4 harg4 arg5 harg5 arg6 harg6 arg7 harg7 arg8 harg8 hc0 x0 x1 x2 x3 x4 = k0_pay2 i x0 x1 x2 x3 x4 (k0_pay1 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  -- one whole-block store of the accumulator read back after its two stores
  refine (View.canon_unit_zero (S := S128x2048) hz _ _).trans ?_
  refine (readCov_cons_whole (S := S128x2048) _ hz _ _ _ _).trans ?_
  rw [View.readCov_unit_zero (S := S128x2048) _ hz]
  simp only [View.readAt_eq_ld, harg2.read_unread, harg3.read_unread, harg4.read_unread, harg5.read_unread,
    harg6.read_unread, View.ld_unit_zero (S := S128x2048) hz, View.ld_unit_zero (S := S128x2) hz,
    View.ld_unit_zero (S := S1x2816x2048) hz3, View.ld_unit_zero (S := S1x2048x1408) hz3]

/-- Any other expert: the accumulator ends at the accumulated value over what it held. -/
theorem sout0_B_0_eq (c : Dev nD) (i : grid0.Coords) (arg2 : Memref sig .tc .vmem S128x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S128x2 .i32) (harg5 : arg5.IsWhole) (arg6 : Memref sig .tc .vmem S128x2 .f32) (harg6 : arg6.IsWhole) (arg7 : Memref sig .tc .vmem S128x2048 .f32) (harg7 : arg7.IsWhole) (arg8 : Memref sig .tc .vmem S128x2048 .f32) (harg8 : arg8.IsWhole) (hc0 : ¬cond0_0 i)
    (x0 : Vec F S128x2048 .bf16) (x1 : Vec F S1x2816x2048 .bf16) (x2 : Vec F S1x2048x1408 .bf16) (x3 : Vec F S128x2 .i32) (x4 : Vec F S128x2 .f32) (xs0 : Vec F S128x2048 .f32) :
    sout0_B_0 c i arg2 harg2 arg3 harg3 arg4 harg4 arg5 harg5 arg6 harg6 arg7 harg7 arg8 harg8 hc0 x0 x1 x2 x3 x4 xs0 = k0_pay2 i x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 x0 x1 x2 x3 x4 xs0)]
  unfold kernelRun0_B
  dsimp only
  sl_unfold_words
  -- one whole-block store: the accumulated value over what the accumulator held
  rw [View.canon_unit_zero hz]
  simp only [View.readAt_eq_ld, harg2.read_unread, harg3.read_unread, harg4.read_unread, harg5.read_unread,
    harg6.read_unread, harg8.read_unread, View.ld_unit_zero (S := S128x2048) hz, View.ld_unit_zero (S := S128x2) hz,
    View.ld_unit_zero (S := S1x2816x2048) hz3, View.ld_unit_zero (S := S1x2048x1408) hz3]

/-- Any other expert: the output tile ends at the same value. -/
theorem out0_B_5_eq (c : Dev nD) (i : grid0.Coords) (arg2 : Memref sig .tc .vmem S128x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S128x2 .i32) (harg5 : arg5.IsWhole) (arg6 : Memref sig .tc .vmem S128x2 .f32) (harg6 : arg6.IsWhole) (arg7 : Memref sig .tc .vmem S128x2048 .f32) (harg7 : arg7.IsWhole) (arg8 : Memref sig .tc .vmem S128x2048 .f32) (harg8 : arg8.IsWhole) (hc0 : ¬cond0_0 i)
    (x0 : Vec F S128x2048 .bf16) (x1 : Vec F S1x2816x2048 .bf16) (x2 : Vec F S1x2048x1408 .bf16) (x3 : Vec F S128x2 .i32) (x4 : Vec F S128x2 .f32) (xs0 : Vec F S128x2048 .f32) :
    out0_B_5 c i arg2 harg2 arg3 harg3 arg4 harg4 arg5 harg5 arg6 harg6 arg7 harg7 arg8 harg8 hc0 x0 x1 x2 x3 x4 xs0 = k0_pay2 i x0 x1 x2 x3 x4 xs0 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  -- one whole-block store of the accumulator read back after its one store
  refine (View.canon_unit_zero (S := S128x2048) hz _ _).trans ?_
  refine (View.readCov_unit_zero (S := S128x2048) _ hz _ _).trans ?_
  simp only [View.readAt_eq_ld, harg2.read_unread, harg3.read_unread, harg4.read_unread, harg5.read_unread,
    harg6.read_unread, harg8.read_unread, View.ld_unit_zero (S := S128x2048) hz, View.ld_unit_zero (S := S128x2) hz,
    View.ld_unit_zero (S := S1x2816x2048) hz3, View.ld_unit_zero (S := S1x2048x1408) hz3]

end Cert.KernelIdeal.KPieces

end
-- ==== Proof.KPayload.lean ====
/-
  The kernel body's two stored values read at an index, at the ideal values. The value stored at the first expert of a row
  tile is zero everywhere; the value stored at every point is, at row r and column c of the tile, the accumulator's entry plus
  this expert's output for the row (two products with the gated activation between them) times the row's weight for the expert.
-/
import proofs.«402619_j34265249087924_1_alg».proof.Proof.Gen.KernelIdeal.Skeleton
import proofs.«402619_j34265249087924_1_alg».proof.Proof.MoeSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPayload

open Cert.KernelIdeal Cert.KernelIdeal.Gen Idealize.ShloMosaic Idealize.ShloMosaic.ValueIdx Cert.Moe

/-! ## The first product: the row tile against the first weight matrix -/

/-- The left operand's row is the result's row. -/
theorem lhs_mm1_0 (i : S128x2816.Idx) (q : dot_S128x2048_S2816x2048_S128x2816_1_1_0_0_n_n.contr.Idx) :
    (dot_S128x2048_S2816x2048_S128x2816_1_1_0_0_n_n.lhsIdx i q 0).val = (i 0).val := by
  unfold DotDims.lhsIdx
  rw [dif_neg (show ¬(0 : Fin S128x2048.rank) ∈ dot_S128x2048_S2816x2048_S128x2816_1_1_0_0_n_n.lhsBatch by decide), dif_pos (show (0 : Fin S128x2048.rank) ∈ dot_S128x2048_S2816x2048_S128x2816_1_1_0_0_n_n.lhsNonContracting by decide)]
  rfl
/-- The left operand's column is the summation index. -/
theorem lhs_mm1_1 (i : S128x2816.Idx) (q : dot_S128x2048_S2816x2048_S128x2816_1_1_0_0_n_n.contr.Idx) :
    (dot_S128x2048_S2816x2048_S128x2816_1_1_0_0_n_n.lhsIdx i q 1).val = (q ⟨0, by decide⟩).val :=
  dot_S128x2048_S2816x2048_S128x2816_1_1_0_0_n_n.lhsIdx_val_of_single rfl i q
/-- The right operand's row is the result's column. -/
theorem rhs_mm1_0 (i : S128x2816.Idx) (q : dot_S128x2048_S2816x2048_S128x2816_1_1_0_0_n_n.contr.Idx) :
    (dot_S128x2048_S2816x2048_S128x2816_1_1_0_0_n_n.rhsIdx i q 0).val = (i 1).val := by
  unfold DotDims.rhsIdx
  rw [dif_neg (show ¬(0 : Fin S2816x2048.rank) ∈ dot_S128x2048_S2816x2048_S128x2816_1_1_0_0_n_n.rhsBatch by decide), dif_pos (show (0 : Fin S2816x2048.rank) ∈ dot_S128x2048_S2816x2048_S128x2816_1_1_0_0_n_n.rhsNonContracting by decide)]
  rfl
/-- The right operand's column is the summation index. -/
theorem rhs_mm1_1 (i : S128x2816.Idx) (q : dot_S128x2048_S2816x2048_S128x2816_1_1_0_0_n_n.contr.Idx) :
    (dot_S128x2048_S2816x2048_S128x2816_1_1_0_0_n_n.rhsIdx i q 1).val = (q ⟨0, by decide⟩).val :=
  dot_S128x2048_S2816x2048_S128x2816_1_1_0_0_n_n.rhsIdx_val_of_single rfl i q

/-- The product into a zero accumulator, at row `r` and column `n`: the sum over `k` of the left operand's entry
    `(r, k)` times the right operand's entry `(n, k)` (both operands are summed along their second axis). -/
theorem mm1_apply (a : FVec Ideal S128x2048 .bf16) (b : FVec Ideal S2816x2048 .bf16) (r : Fin 128) (n : Fin 2816) :
    matmul dot_S128x2048_S2816x2048_S128x2816_1_1_0_0_n_n none a b (constant (F := Ideal) S128x2816 .f32 0x00000000#32) (ix2 r n)
      = ∑ k : Fin 2048, a (ix2 r k) * b (ix2 n k) := by
  simp only [matmul]
  rw [Ideal.matmul_constant_zero_apply, ← Equiv.sum_comp (contrEquiv1 dot_S128x2048_S2816x2048_S128x2816_1_1_0_0_n_n 2048 rfl rfl).symm]
  refine Finset.sum_congr rfl fun k _ => ?_
  have hk := contrEquiv1_symm_val dot_S128x2048_S2816x2048_S128x2816_1_1_0_0_n_n 2048 rfl rfl k
  have el : dot_S128x2048_S2816x2048_S128x2816_1_1_0_0_n_n.lhsIdx (ix2 r n) ((contrEquiv1 dot_S128x2048_S2816x2048_S128x2816_1_1_0_0_n_n 2048 rfl rfl).symm k) = ix2 r k := funext fun ax => Fin.ext (by
    match ax with
    | ⟨0, _⟩ => exact lhs_mm1_0 _ _
    | ⟨1, _⟩ => exact (lhs_mm1_1 _ _).trans hk)
  have er : dot_S128x2048_S2816x2048_S128x2816_1_1_0_0_n_n.rhsIdx (ix2 r n) ((contrEquiv1 dot_S128x2048_S2816x2048_S128x2816_1_1_0_0_n_n 2048 rfl rfl).symm k) = ix2 n k := funext fun ax => Fin.ext (by
    match ax with
    | ⟨0, _⟩ => exact rhs_mm1_0 _ _
    | ⟨1, _⟩ => exact (rhs_mm1_1 _ _).trans hk)
  rw [el, er]

/-! ## The second product: the activation against the second weight matrix -/

/-- The left operand's row is the result's row. -/
theorem lhs_mm2_0 (i : S128x2048.Idx) (q : dot_S128x1408_S2048x1408_S128x2048_1_1_0_0_n_n.contr.Idx) :
    (dot_S128x1408_S2048x1408_S128x2048_1_1_0_0_n_n.lhsIdx i q 0).val = (i 0).val := by
  unfold DotDims.lhsIdx
  rw [dif_neg (show ¬(0 : Fin S128x1408.rank) ∈ dot_S128x1408_S2048x1408_S128x2048_1_1_0_0_n_n.lhsBatch by decide), dif_pos (show (0 : Fin S128x1408.rank) ∈ dot_S128x1408_S2048x1408_S128x2048_1_1_0_0_n_n.lhsNonContracting by decide)]
  rfl
/-- The left operand's column is the summation index. -/
theorem lhs_mm2_1 (i : S128x2048.Idx) (q : dot_S128x1408_S2048x1408_S128x2048_1_1_0_0_n_n.contr.Idx) :
    (dot_S128x1408_S2048x1408_S128x2048_1_1_0_0_n_n.lhsIdx i q 1).val = (q ⟨0, by decide⟩).val :=
  dot_S128x1408_S2048x1408_S128x2048_1_1_0_0_n_n.lhsIdx_val_of_single rfl i q
/-- The right operand's row is the result's column. -/
theorem rhs_mm2_0 (i : S128x2048.Idx) (q : dot_S128x1408_S2048x1408_S128x2048_1_1_0_0_n_n.contr.Idx) :
    (dot_S128x1408_S2048x1408_S128x2048_1_1_0_0_n_n.rhsIdx i q 0).val = (i 1).val := by
  unfold DotDims.rhsIdx
  rw [dif_neg (show ¬(0 : Fin S2048x1408.rank) ∈ dot_S128x1408_S2048x1408_S128x2048_1_1_0_0_n_n.rhsBatch by decide), dif_pos (show (0 : Fin S2048x1408.rank) ∈ dot_S128x1408_S2048x1408_S128x2048_1_1_0_0_n_n.rhsNonContracting by decide)]
  rfl
/-- The right operand's column is the summation index. -/
theorem rhs_mm2_1 (i : S128x2048.Idx) (q : dot_S128x1408_S2048x1408_S128x2048_1_1_0_0_n_n.contr.Idx) :
    (dot_S128x1408_S2048x1408_S128x2048_1_1_0_0_n_n.rhsIdx i q 1).val = (q ⟨0, by decide⟩).val :=
  dot_S128x1408_S2048x1408_S128x2048_1_1_0_0_n_n.rhsIdx_val_of_single rfl i q

/-- The product into a zero accumulator, at row `r` and column `n`: the sum over `k` of the left operand's entry
    `(r, k)` times the right operand's entry `(n, k)` (both operands are summed along their second axis). -/
theorem mm2_apply (a : FVec Ideal S128x1408 .bf16) (b : FVec Ideal S2048x1408 .bf16) (r : Fin 128) (n : Fin 2048) :
    matmul dot_S128x1408_S2048x1408_S128x2048_1_1_0_0_n_n none a b (constant (F := Ideal) S128x2048 .f32 0x00000000#32) (ix2 r n)
      = ∑ k : Fin 1408, a (ix2 r k) * b (ix2 n k) := by
  simp only [matmul]
  rw [Ideal.matmul_constant_zero_apply, ← Equiv.sum_comp (contrEquiv1 dot_S128x1408_S2048x1408_S128x2048_1_1_0_0_n_n 1408 rfl rfl).symm]
  refine Finset.sum_congr rfl fun k _ => ?_
  have hk := contrEquiv1_symm_val dot_S128x1408_S2048x1408_S128x2048_1_1_0_0_n_n 1408 rfl rfl k
  have el : dot_S128x1408_S2048x1408_S128x2048_1_1_0_0_n_n.lhsIdx (ix2 r n) ((contrEquiv1 dot_S128x1408_S2048x1408_S128x2048_1_1_0_0_n_n 1408 rfl rfl).symm k) = ix2 r k := funext fun ax => Fin.ext (by
    match ax with
    | ⟨0, _⟩ => exact lhs_mm2_0 _ _
    | ⟨1, _⟩ => exact (lhs_mm2_1 _ _).trans hk)
  have er : dot_S128x1408_S2048x1408_S128x2048_1_1_0_0_n_n.rhsIdx (ix2 r n) ((contrEquiv1 dot_S128x1408_S2048x1408_S128x2048_1_1_0_0_n_n 1408 rfl rfl).symm k) = ix2 n k := funext fun ax => Fin.ext (by
    match ax with
    | ⟨0, _⟩ => exact rhs_mm2_0 _ _
    | ⟨1, _⟩ => exact (rhs_mm2_1 _ _).trans hk)
  rw [el, er]

/-! ## The layout operations of the body, read at an index -/

/-- The first 1408 columns of the first product: column `j` is the product's column `gateIx j`. -/
theorem gate_apply {α : Type} (X : S128x2816.Idx → α) (h : S128x2816.Slices ![0, 0] S128x1408) (r : Fin 128) (j : Fin 1408) :
    extractStridedSlice S128x1408 ![0, 0] X h (ix2 r j) = X (ix2 r (gateIx j)) :=
  slice2_axis1_apply 0 X h r j (gateIx j) (Nat.zero_add _).symm

/-- The last 1408 columns of the first product: column `j` is the product's column `upIx j`. -/
theorem up_apply {α : Type} (X : S128x2816.Idx → α) (h : S128x2816.Slices ![0, 1408] S128x1408) (r : Fin 128) (j : Fin 1408) :
    extractStridedSlice S128x1408 ![0, 1408] X h (ix2 r j) = X (ix2 r (upIx j)) :=
  slice2_axis1_apply 1408 X h r j (upIx j) rfl

/-- The vector of 128 row weights written as a column: its entry at row `r` is the vector's entry `r`. -/
theorem col_apply {α : Type} (v : S128.Idx → α) (h : S128.ShapeCasts S128x1) (r : Fin 128) (u : Fin 1) :
    shapeCast S128x1 v h (ix2 r u) = v (ix1 r) :=
  shapeCast_apply v h _ _ (by
    have hu : u.val = 0 := by omega
    rw [Shape.rowMajor_val_one, Shape.rowMajor_val_two]
    show r.val = r.val * 1 + u.val
    omega)

/-- The column repeated along the 2048 columns of the tile: its entry at `(r, c)` is the column's entry at row `r`. -/
theorem bcol_apply {α : Type} (v : S128x1.Idx → α) (h : S128x1.Broadcasts S128x2048) (r : Fin 128) (c : Fin 2048) :
    broadcastTo S128x2048 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-! ## The sum over the two slots of a row -/

/-- The index of the 128 x 2 array over row `r` with slot `s` put back is `(r, s)`. -/
theorem lift_row (h : S128x2.Reduces [1] S128) (r : Fin 128) (s : Fin 2) : h.lift (ix1 r) s = ix2 r s := by
  funext ax
  apply Fin.ext
  show h.liftVal (ix1 r) s.val ax = (ix2 r s ax).val
  unfold Shape.Reduces.liftVal
  match ax with
  | ⟨0, _⟩ => rfl
  | ⟨1, _⟩ => rfl

/-- The sum along the slot axis, at row `r`: the sum over the two slots of the row's entries. -/
theorem slotsum_apply (src : FVec Ideal S128x2 .f32) (h : S128x2.Reduces [1] S128) (hφ : FKind.Formats .f32)
    (hacc : (0x00000000#32 : BitVec 32) = FKind.add.neutral .f32 hφ) (r : Fin 128) :
    multiReduction (F := Ideal) .add [1] S128 src 0x00000000#32 h hφ hacc (ix1 r) = ∑ s : Fin 2, src (ix2 r s) := by
  refine (Ideal.multiReduction_add_single src 0x00000000#32 h hφ hacc (ix1 r)).trans ?_
  exact Finset.sum_congr rfl fun s _ => congrArg src (lift_row h r s)

/-- A choice on the one-bit result of comparing two words for equality is the choice on their equality. -/
theorem select_cmpi_eq {α : Type} (a b : BitVec 32) (x y : α) :
    Scalar.select (IntOp.cmpi .eq a b) x y = if a = b then x else y := by
  by_cases h : a = b
  · rw [if_pos h]
    have e : IntOp.cmpi .eq a b = 1#1 := by
      show BitVec.ofBool (a == b) = 1#1
      rw [beq_iff_eq.mpr h]
      rfl
    rw [e, select_one]
  · rw [if_neg h]
    have e : IntOp.cmpi .eq a b = 0#1 := by
      show BitVec.ofBool (a == b) = 0#1
      rw [beq_eq_false_iff_ne.mpr h]
      rfl
    rw [e, select_zero]

/-- A row's total weight for the expert whose number is `e`: the slots whose word is `e` keep their weight, the others
    count zero, and the two are added. -/
theorem weight_apply (x3 : IVec S128x2 32) (x4 : FVec Ideal S128x2 .f32) (e : Nat) (h : S128x2.Reduces [1] S128)
    (hφ : FKind.Formats .f32) (hacc : (0x00000000#32 : BitVec 32) = FKind.add.neutral .f32 hφ) (r : Fin 128) :
    multiReduction (F := Ideal) .add [1] S128
        (select (cmpi .eq x3 (broadcast S128x2 (BitVec.ofNat 32 e))) x4 (broadcast S128x2 (FloatOps.ofBits (F := Ideal) .f32 0x00000000#32)))
        0x00000000#32 h hφ hacc (ix1 r)
      = wrow (fun s => x4 (ix2 r s)) (fun s => x3 (ix2 r s)) e := by
  rw [slotsum_apply]
  unfold wrow
  rw [zero_add]
  refine Finset.sum_congr rfl fun s _ => ?_
  show Scalar.select (IntOp.cmpi .eq (x3 (ix2 r s)) (BitVec.ofNat 32 e)) (x4 (ix2 r s)) (Ideal.ofBits .f32 0x00000000#32) = _
  rw [select_cmpi_eq, Ideal.ofBits_zero_f32]

/-! ## The gated activation and the expert's output -/

/-- The logistic function of an array, at an index. -/
theorem logistic_apply {s : Shape} {φ : FTy} (v : FVec Ideal s φ) (i : s.Idx) : logistic v i = Ideal.logistic (v i) := rfl

/-- The first product of the row tile against the expert's first weight matrix, at row `r` and column `n`. -/
theorem h1_apply (x0 : FVec Ideal S128x2048 .bf16) (x1 : FVec Ideal S1x2816x2048 .bf16)
    (h : S1x2816x2048.ShapeCasts S2816x2048) (r : Fin 128) (n : Fin 2816) :
    matmul dot_S128x2048_S2816x2048_S128x2816_1_1_0_0_n_n none x0 (shapeCast S2816x2048 x1 h)
        (constant (F := Ideal) S128x2816 .f32 0x00000000#32) (ix2 r n)
      = h1row (fun k => x0 (ix2 r k)) (fun n k => x1 (ix3 0 n k)) n := by
  rw [mm1_apply]
  unfold h1row
  refine Finset.sum_congr rfl fun k _ => ?_
  rw [shapeCast_1ab_ab_apply]

/-- The gated activation at row `r` and column `j`, from any 128 x 2816 first product `V`. -/
theorem act_apply (V : FVec Ideal S128x2816 .f32) (hg : S128x2816.Slices ![0, 0] S128x1408)
    (hu : S128x2816.Slices ![0, 1408] S128x1408) (hb : FTy.bits .bf16 < FTy.bits .f32) (r : Fin 128) (j : Fin 1408) :
    truncf .bf16 (mulf (mulf (extractStridedSlice S128x1408 ![0, 0] V hg) (logistic (extractStridedSlice S128x1408 ![0, 0] V hg)))
        (extractStridedSlice S128x1408 ![0, 1408] V hu)) hb (ix2 r j)
      = silu (V (ix2 r (gateIx j))) * V (ix2 r (upIx j)) := by
  rw [truncf_apply, mulf_apply, mulf_apply, logistic_apply, gate_apply, up_apply]
  rfl

/-! ## The two stored values -/

/-- The reset value is zero at every index. -/
theorem pay1_apply (j : S128x2048.Idx) : k0_pay1 (F := Ideal) j = 0 := by
  unfold k0_pay1
  rw [shapeCast_self]
  exact Ideal.ofBits_zero_f32

/-- The accumulated value at row `r`, column `c` of the tile: the accumulator there plus the expert's output for the row
    times the row's weight for the expert whose number is the second grid coordinate. -/
theorem pay2_apply (i : grid0.Coords) (x0 : Vec Ideal S128x2048 .bf16) (x1 : Vec Ideal S1x2816x2048 .bf16)
    (x2 : Vec Ideal S1x2048x1408 .bf16) (x3 : Vec Ideal S128x2 .i32) (x4 : Vec Ideal S128x2 .f32)
    (acc : Vec Ideal S128x2048 .f32) (r : Fin 128) (c : Fin 2048) :
    k0_pay2 (F := Ideal) i x0 x1 x2 x3 x4 acc (ix2 r c)
      = acc (ix2 r c)
        + yrow (fun k => x0 (ix2 r k)) (fun n k => x1 (ix3 0 n k)) (fun c' j => x2 (ix3 0 c' j)) c
          * wrow (fun s => x4 (ix2 r s)) (fun s => x3 (ix2 r s)) (i 1).val := by
  unfold k0_pay2
  simp only [shapeCast_self]
  rw [addf_apply, mulf_apply, bcol_apply, col_apply, mm2_apply]
  refine congrArg (acc (ix2 r c) + ·) ?_
  refine congrArg₂ (· * ·) ?_ ?_
  · unfold yrow
    refine Finset.sum_congr rfl fun j _ => ?_
    rw [act_apply, h1_apply, h1_apply, shapeCast_1ab_ab_apply]
    rfl
  · exact weight_apply x3 x4 (i 1).val _ _ _ r

end Cert.KernelIdeal.KPayload

end
-- ==== Proof.KValue.lean ====
/-
  The kernel's result array after the run, at the ideal values, as one function of the five argument arrays: row m, column c holds
  zero plus, over the eight experts in order, expert e's output for row m at column c times row m's weight for e.
  The grid is 32 row tiles by 8 experts, the expert axis innermost; the accumulator is reset at expert 0 and the output tile,
  a copy of the accumulator, is written back after expert 7.
-/
import proofs.«402619_j34265249087924_1_alg».proof.Proof.Gen.KernelIdeal.Value
import proofs.«402619_j34265249087924_1_alg».proof.Proof.KPieces
import proofs.«402619_j34265249087924_1_alg».proof.Proof.KPayload
import proofs.«402619_j34265249087924_1_alg».proof.Proof.MoeSpec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each block sits in its array -/

/-- The block indices and the expert coordinate at point t, decided over the grid: the row tile is t / 8 and the expert is t % 8. -/
theorem idx_facts : ∀ t : Fin cfg0.N,
    win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = 0 ∧ win0_2.index t (2 : Fin 3) = 0
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ ((grid0.coords t) 1).val = t.val % 8 :=
  (by decide +kernel : ∀ t : Fin grid0.N, _)

/-- The five argument arrays and, at a grid point, the five blocks the point works on. -/
abbrev a0 (c : Dev nD) : S4096x2048.Idx → EReal := m ((c : Thread nD τ).loc main_arg0)
abbrev a1 (c : Dev nD) : S8x2816x2048.Idx → EReal := m ((c : Thread nD τ).loc main_arg1)
abbrev a2 (c : Dev nD) : S8x2048x1408.Idx → EReal := m ((c : Thread nD τ).loc main_arg2)
abbrev a3 (c : Dev nD) : S4096x2.Idx → EReal := m ((c : Thread nD τ).loc main_arg3)
abbrev a4 (c : Dev nD) : S4096x2.Idx → BitVec 32 := m ((c : Thread nD τ).loc main_arg4)
abbrev xblk (c : Dev nD) (t : Fin cfg0.N) : Vec Ideal S128x2048 .bf16 := iblk m c 0 t
abbrev w1blk (c : Dev nD) (t : Fin cfg0.N) : Vec Ideal S1x2816x2048 .bf16 := iblk m c 1 t
abbrev w2blk (c : Dev nD) (t : Fin cfg0.N) : Vec Ideal S1x2048x1408 .bf16 := iblk m c 2 t
abbrev idblk (c : Dev nD) (t : Fin cfg0.N) : Vec Ideal S128x2 .i32 := iblk m c 3 t
abbrev wtblk (c : Dev nD) (t : Fin cfg0.N) : Vec Ideal S128x2 .f32 := iblk m c 4 t

/-- The three arrays the conversions wrote before the region hold, at the ideal values, the argument arrays themselves. -/
theorem v0_eq (c : Dev nD) : (V m c main_v0 : S4096x2048.Idx → EReal) = a0 m c := by
  dsimp only [Gen.V, Gen.hostOps0]; after_results; rfl
theorem v1_eq (c : Dev nD) : (V m c main_v1 : S8x2816x2048.Idx → EReal) = a1 m c := by
  dsimp only [Gen.V, Gen.hostOps0]; after_results; rfl
theorem v2_eq (c : Dev nD) : (V m c main_v2 : S8x2048x1408.Idx → EReal) = a2 m c := by
  dsimp only [Gen.V, Gen.hostOps0]; after_results; rfl

/-! ## The blocks read where the grid point puts them -/

/-- The array row that row r of point n's tile is, and point n's expert (both total in n: reduced into range). -/
def rowOf (n : ℕ) (r : Fin 128) : Fin 4096 := ⟨(128 * (n / 8) + r.val) % 4096, Nat.mod_lt _ (by decide)⟩
def expOf (n : ℕ) : Fin 8 := ⟨n % 8, Nat.mod_lt _ (by decide)⟩

theorem rowOf_val (n : ℕ) (hn : n < 256) (r : Fin 128) : (rowOf n r).val = 128 * (n / 8) + r.val := by
  show (128 * (n / 8) + r.val) % 4096 = _
  have := r.isLt
  omega

/-- Row r of the token tile at point t is row 128 (t / 8) + r of the token array. -/
theorem xblk_apply (c : Dev nD) (t : Fin cfg0.N) (r : Fin 128) (k : Fin 2048) :
    xblk m c t (ix2 r k) = a0 m c (ix2 (rowOf t.val r) k) := by
  obtain ⟨e0, e1, -⟩ := idx_facts t
  have hN : t.val < 256 := lt_of_lt_of_eq t.isLt (show cfg0.N = 256 from N_0)
  have hr := rowOf_val t.val hN r
  show V m c main_v0 (((cfg0.win 0).blk t).view.emb (ix2 r k)) = _
  refine (congrFun (v0_eq m c) _).trans ?_
  refine congrArg (a0 m c) ?_
  funext a; apply Fin.ext
  match a with
  | ⟨0, _⟩ => show win0_0.index t (0 : Fin 2) * 128 + 1 * r.val = (rowOf t.val r).val; omega
  | ⟨1, _⟩ => show win0_0.index t (1 : Fin 2) * 2048 + 1 * k.val = k.val; omega

/-- The first weight tile at point t is expert t % 8's matrix. -/
theorem w1blk_apply (c : Dev nD) (t : Fin cfg0.N) (n : Fin 2816) (k : Fin 2048) :
    w1blk m c t (ix3 0 n k) = a1 m c (ix3 (expOf t.val) n k) := by
  obtain ⟨-, -, e0, e1, e2, -⟩ := idx_facts t
  show V m c main_v1 (((cfg0.win 1).blk t).view.emb (ix3 0 n k)) = _
  refine (congrFun (v1_eq m c) _).trans ?_
  refine congrArg (a1 m c) ?_
  funext a; apply Fin.ext
  match a with
  | ⟨0, _⟩ => show win0_1.index t (0 : Fin 3) * 1 + 1 * 0 = t.val % 8; omega
  | ⟨1, _⟩ => show win0_1.index t (1 : Fin 3) * 2816 + 1 * n.val = n.val; omega
  | ⟨2, _⟩ => show win0_1.index t (2 : Fin 3) * 2048 + 1 * k.val = k.val; omega

/-- The second weight tile at point t is expert t % 8's matrix. -/
theorem w2blk_apply (c : Dev nD) (t : Fin cfg0.N) (n : Fin 2048) (k : Fin 1408) :
    w2blk m c t (ix3 0 n k) = a2 m c (ix3 (expOf t.val) n k) := by
  obtain ⟨-, -, -, -, -, e0, e1, e2, -⟩ := idx_facts t
  show V m c main_v2 (((cfg0.win 2).blk t).view.emb (ix3 0 n k)) = _
  refine (congrFun (v2_eq m c) _).trans ?_
  refine congrArg (a2 m c) ?_
  funext a; apply Fin.ext
  match a with
  | ⟨0, _⟩ => show win0_2.index t (0 : Fin 3) * 1 + 1 * 0 = t.val % 8; omega
  | ⟨1, _⟩ => show win0_2.index t (1 : Fin 3) * 2048 + 1 * n.val = n.val; omega
  | ⟨2, _⟩ => show win0_2.index t (2 : Fin 3) * 1408 + 1 * k.val = k.val; omega

/-- Row r of the expert-word tile at point t is row 128 (t / 8) + r of the expert words. -/
theorem idblk_apply (c : Dev nD) (t : Fin cfg0.N) (r : Fin 128) (s : Fin 2) :
    idblk m c t (ix2 r s) = a4 m c (ix2 (rowOf t.val r) s) := by
  obtain ⟨-, -, -, -, -, -, -, -, e0, e1, -⟩ := idx_facts t
  have hN : t.val < 256 := lt_of_lt_of_eq t.isLt (show cfg0.N = 256 from N_0)
  have hr := rowOf_val t.val hN r
  show V m c main_arg4 (((cfg0.win 3).blk t).view.emb (ix2 r s)) = _
  refine (congrFun (V_main_arg4 m c) _).trans ?_
  refine congrArg (a4 m c) ?_
  funext a; apply Fin.ext
  match a with
  | ⟨0, _⟩ => show win0_3.index t (0 : Fin 2) * 128 + 1 * r.val = (rowOf t.val r).val; omega
  | ⟨1, _⟩ => show win0_3.index t (1 : Fin 2) * 2 + 1 * s.val = s.val; omega

/-- Row r of the weight tile at point t is row 128 (t / 8) + r of the routing weights. -/
theorem wtblk_apply (c : Dev nD) (t : Fin cfg0.N) (r : Fin 128) (s : Fin 2) :
    wtblk m c t (ix2 r s) = a3 m c (ix2 (rowOf t.val r) s) := by
  obtain ⟨-, -, -, -, -, -, -, -, -, -, e0, e1, -⟩ := idx_facts t
  have hN : t.val < 256 := lt_of_lt_of_eq t.isLt (show cfg0.N = 256 from N_0)
  have hr := rowOf_val t.val hN r
  show V m c main_arg3 (((cfg0.win 4).blk t).view.emb (ix2 r s)) = _
  refine (congrFun (V_main_arg3 m c) _).trans ?_
  refine congrArg (a3 m c) ?_
  funext a; apply Fin.ext
  match a with
  | ⟨0, _⟩ => show win0_4.index t (0 : Fin 2) * 128 + 1 * r.val = (rowOf t.val r).val; omega
  | ⟨1, _⟩ => show win0_4.index t (1 : Fin 2) * 2 + 1 * s.val = s.val; omega

/-! ## One point's addend and one point's step -/

/-- Point n's addend at row r, column c of its tile: expert n % 8's output for array row 128 (n / 8) + r at column c, times that
    row's weight for the expert. -/
def addend (A0 : S4096x2048.Idx → EReal) (A1 : S8x2816x2048.Idx → EReal) (A2 : S8x2048x1408.Idx → EReal)
    (A3 : S4096x2.Idx → EReal) (A4 : S4096x2.Idx → BitVec 32) (n : ℕ) (j : S128x2048.Idx) : EReal :=
  Cert.Moe.yrow (fun k => A0 (ix2 (rowOf n (j 0)) k)) (fun nn k => A1 (ix3 (expOf n) nn k)) (fun c' jj => A2 (ix3 (expOf n) c' jj)) (j 1)
    * Cert.Moe.wrow (fun s => A3 (ix2 (rowOf n (j 0)) s)) (fun s => A4 (ix2 (rowOf n (j 0)) s)) (n % 8)

/-- The accumulated value at point t over an accumulator: the accumulator plus the point's addend, entry by entry. -/
theorem pay2_at (c : Dev nD) (t : Fin cfg0.N) (acc : Vec Ideal S128x2048 .f32) (j : S128x2048.Idx) :
    k0_pay2 (F := Ideal) (grid0.coords t) (xblk m c t) (w1blk m c t) (w2blk m c t) (idblk m c t) (wtblk m c t) acc j
      = acc j + addend (a0 m c) (a1 m c) (a2 m c) (a3 m c) (a4 m c) t.val j := by
  obtain ⟨r, cc, rfl⟩ : ∃ (r : Fin 128) (cc : Fin 2048), j = ix2 r cc := ⟨j 0, j 1, eq_ix2 j⟩
  have he : ((grid0.coords t) 1).val = t.val % 8 := (idx_facts t).2.2.2.2.2.2.2.2.2.2.2.2.2.2
  refine (KPayload.pay2_apply (grid0.coords t) (xblk m c t) (w1blk m c t) (w2blk m c t) (idblk m c t) (wtblk m c t) acc r cc).trans ?_
  have h0 : (fun k => xblk m c t (ix2 r k)) = fun k => a0 m c (ix2 (rowOf t.val r) k) := funext fun k => xblk_apply m c t r k
  have h1 : (fun n k => w1blk m c t (ix3 0 n k)) = fun n k => a1 m c (ix3 (expOf t.val) n k) := funext fun n => funext fun k => w1blk_apply m c t n k
  have h2 : (fun n k => w2blk m c t (ix3 0 n k)) = fun n k => a2 m c (ix3 (expOf t.val) n k) := funext fun n => funext fun k => w2blk_apply m c t n k
  have h3 : (fun s => idblk m c t (ix2 r s)) = fun s => a4 m c (ix2 (rowOf t.val r) s) := funext fun s => idblk_apply m c t r s
  have h4 : (fun s => wtblk m c t (ix2 r s)) = fun s => a3 m c (ix2 (rowOf t.val r) s) := funext fun s => wtblk_apply m c t r s
  rw [h0, h1, h2, h3, h4, he]
  rfl

/-- What a point leaves in the accumulator, entry by entry: at the first expert of a tile zero plus the addend, at any other the
    accumulator plus the addend. -/
theorem sc_apply_A (c : Dev nD) (n : ℕ) (hb : n < cfg0.N) (h0 : n % 8 = 0) (acc : Vec Ideal S128x2048 .f32) (j : S128x2048.Idx) :
    Value.scAt0_0 m c n hb acc j = 0 + addend (a0 m c) (a1 m c) (a2 m c) (a3 m c) (a4 m c) n j := by
  unfold Value.scAt0_0
  rw [dif_pos h0]
  refine (congrFun (KPieces.sout0_A_0_eq (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) ((hcond0_0 ⟨n, hb⟩).mpr h0) (xblk m c ⟨n, hb⟩) (w1blk m c ⟨n, hb⟩) (w2blk m c ⟨n, hb⟩) (idblk m c ⟨n, hb⟩) (wtblk m c ⟨n, hb⟩)) j).trans ?_
  refine (pay2_at m c ⟨n, hb⟩ (k0_pay1 (F := Ideal)) j).trans ?_
  rw [KPayload.pay1_apply j]

theorem sc_apply_B (c : Dev nD) (n : ℕ) (hb : n < cfg0.N) (h0 : ¬ n % 8 = 0) (acc : Vec Ideal S128x2048 .f32) (j : S128x2048.Idx) :
    Value.scAt0_0 m c n hb acc j = acc j + addend (a0 m c) (a1 m c) (a2 m c) (a3 m c) (a4 m c) n j := by
  unfold Value.scAt0_0
  rw [dif_neg h0]
  refine (congrFun (KPieces.sout0_B_0_eq (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) (fun h => h0 ((hcond0_0 ⟨n, hb⟩).mp h)) (xblk m c ⟨n, hb⟩) (w1blk m c ⟨n, hb⟩) (w2blk m c ⟨n, hb⟩) (idblk m c ⟨n, hb⟩) (wtblk m c ⟨n, hb⟩) acc) j).trans ?_
  exact pay2_at m c ⟨n, hb⟩ acc j

/-- The addend with its row, expert and column named. -/
theorem addend_eq (A0 : S4096x2048.Idx → EReal) (A1 : S8x2816x2048.Idx → EReal) (A2 : S8x2048x1408.Idx → EReal)
    (A3 : S4096x2.Idx → EReal) (A4 : S4096x2.Idx → BitVec 32) (n : ℕ) (j : S128x2048.Idx) (R : Fin 4096) (E : Fin 8) (C : Fin 2048)
    (hR : R.val = 128 * (n / 8) + (j 0).val) (hE : E.val = n % 8) (hC : C.val = (j 1).val) :
    addend A0 A1 A2 A3 A4 n j
      = Cert.Moe.yrow (fun k => A0 (ix2 R k)) (fun nn k => A1 (ix3 E nn k)) (fun c' jj => A2 (ix3 E c' jj)) C
        * Cert.Moe.wrow (fun s => A3 (ix2 R s)) (fun s => A4 (ix2 R s)) E.val := by
  have h1 : rowOf n (j 0) = R := Fin.ext (by show (128 * (n / 8) + (j 0).val) % 4096 = R.val; have := R.isLt; omega)
  have h2 : expOf n = E := Fin.ext hE.symm
  have h3 : j 1 = C := Fin.ext hC.symm
  unfold addend
  rw [h1, h2, h3, hE]

/-! ## The accumulator after a point, and the tile written back -/

/-- After point t the accumulator holds, entry by entry, zero plus the addends of the tile's points up to t. -/
theorem acc_apply (c : Dev nD) (t : Fin cfg0.N) (j : S128x2048.Idx) :
    (outsAt0 m c t.val t.isLt).2 j
      = 0 + ∑ s ∈ Finset.range (t.val % 8 + 1), addend (a0 m c) (a1 m c) (a2 m c) (a3 m c) (a4 m c) (8 * (t.val / 8) + s) j := by
  have hN : t.val < 256 := lt_of_lt_of_eq t.isLt (show cfg0.N = 256 from N_0)
  rw [Value.soutsAt0_0_eq m c t]
  exact Pipeline.accAt_add_apply (fun n h => Value.scAt0_0 m c n h (VS0_0.read (Elt Ideal) VS0_0.junk)) (Value.scAt0_0 m c)
    (fun _ => 0) (addend (a0 m c) (a1 m c) (a2 m c) (a3 m c) (a4 m c)) (8 * (t.val / 8)) 7
    (fun h i => sc_apply_A m c _ h (by omega) _ i)
    (fun n h acc i h1 h2 => sc_apply_B m c n h (by omega) acc i)
    (t.val % 8) (by omega) _ j

/-- At every point the output tile is a copy of the accumulator. -/
theorem out_eq_acc (c : Dev nD) (t : Fin cfg0.N) : (outsAt0 m c t.val t.isLt).1 = (outsAt0 m c t.val t.isLt).2 := by
  by_cases h0 : t.val % 8 = 0
  · rw [outsAt0_A m c t h0]
    dsimp only
    exact (KPieces.out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (xblk m c t) (w1blk m c t) (w2blk m c t) (idblk m c t) (wtblk m c t)).trans
      (KPieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (xblk m c t) (w1blk m c t) (w2blk m c t) (idblk m c t) (wtblk m c t)).symm
  · rw [outsAt0_B m c t h0]
    dsimp only
    exact (KPieces.out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (xblk m c t) (w1blk m c t) (w2blk m c t) (idblk m c t) (wtblk m c t)
        (outsAt0 m c (t.val - 1) (Nat.lt_of_le_of_lt (Nat.sub_le _ _) t.isLt)).2).trans
      (KPieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (xblk m c t) (w1blk m c t) (w2blk m c t) (idblk m c t) (wtblk m c t)
        (outsAt0 m c (t.val - 1) (Nat.lt_of_le_of_lt (Nat.sub_le _ _) t.isLt)).2).symm

/-- The result array: row by row, zero plus the eight experts' weighted outputs in order. -/
abbrev result (c : Dev nD) : S4096x2048.Idx → EReal := Cert.Moe.OutK (a0 m c) (a1 m c) (a2 m c) (a3 m c) (a4 m c)

/-- What a point that writes back (the last expert of a tile) writes is its block of the result array. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have hN : t.val < 256 := lt_of_lt_of_eq t.isLt (show cfg0.N = 256 from N_0)
  obtain ⟨-, -, -, -, -, -, -, -, -, -, -, -, e0, e1, -⟩ := idx_facts t
  rw [Value.flushed5]
  funext j
  show (outsAt0 m c t.val t.isLt).1 j = result m c (((cfg0.win 5).blk t).view.emb j)
  have hs := acc_apply m c t j
  rw [show t.val % 8 + 1 = 8 by omega, Finset.sum_range] at hs
  rw [out_eq_acc m c t, hs]
  show _ = Cert.Moe.outKrow _ _ _ _ _ _
  unfold Cert.Moe.outKrow
  refine congrArg (fun z => (0 : EReal) + z) (Finset.sum_congr rfl fun e _ => ?_)
  have he := e.isLt
  exact addend_eq (a0 m c) (a1 m c) (a2 m c) (a3 m c) (a4 m c) (8 * (t.val / 8) + e.val) j (((cfg0.win 5).blk t).view.emb j 0) e (((cfg0.win 5).blk t).view.emb j 1)
    (by show win0_5.index t (0 : Fin 2) * 128 + 1 * (j 0).val = _; omega) (by omega)
    (by show win0_5.index t (1 : Fin 2) * 2048 + 1 * (j 1).val = _; omega)

/-- An index of the result array is in point t's block iff each coordinate is in the block's range on its axis. -/
theorem mem_blk5 (t : Fin cfg0.N) (i : S4096x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v3).slice (win0_5.rect t)).set ↔ _
  rw [View.set_slice_whole, Rect.mem_set_unit]
  exact Iff.rfl

/-- Every row of the result array is in the block written back after the last expert of its row tile. -/
theorem cover (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ : ∃ t : Fin cfg0.N, t.val = 8 * ((i 0).val / 128) + 7 :=
    ⟨⟨8 * ((i 0).val / 128) + 7, lt_of_lt_of_eq (by omega) (show cfg0.N = 256 from N_0).symm⟩, rfl⟩
  obtain ⟨-, -, -, -, -, -, -, -, -, -, -, -, e0, e1, -⟩ := idx_facts t
  refine ⟨t, (flush0_5 t).mpr (by omega), ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 2048 ≤ (i 1).val ∧ (i 1).val < win0_5.index t (1 : Fin 2) * 2048 + 2048; omega

/-- The result array after the run. -/
theorem final (c : Dev nD) : (dats m 0 c).arrAt 5 cfg0.N = result m c :=
  (dats m 0 c).arrAt_eq_of_cover 5 (result m c) (flushed_eq m c) cover

/-- THE KERNEL'S RUN WITH ITS RESULT NAMED: every weakly fair execution ends with the result array at the expert-by-expert
    function of the argument arrays, the arguments unchanged. -/
theorem run : θ_run defs (onTc (τ := τ) (main (F := Ideal))) ⟨m, fun _ => 0, ρ⟩ fun r => ∀ c : Dev nD,
      r.2.mem ((c : Thread nD τ).loc main_v3)
        = Cert.Moe.OutK (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RStage.lean ====
/-
  The reference up to the experts' outputs laid out [token, expert, column]: at token m, expert e, column c it is expert e's output
  for row m at column c — the first product (against the first weights, then transposed), its two halves, the gated activation
  spelt as t * (1 / (1 + exp (-t))) times the second half, the batched second product, and the transposition to token-major order.
-/
import proofs.«402619_j34265249087924_1_alg».proof.Proof.RefRead
import proofs.«402619_j34265249087924_1_alg».proof.Proof.MoeSpec
import Idealize.ShloMosaic.Lib.ValueIdx
import Idealize.ShloMosaic.Lib.Pipeline.Value
import Idealize.ShloMosaic.PureOps.Ideal.Laws

noncomputable section

open scoped BigOperators

namespace Cert.ReferenceIdeal.RStage

open Cert.ReferenceIdeal Cert.ReferenceIdeal.Gen Cert.ReferenceIdeal.ReadP Idealize.ShloMosaic Idealize.ShloMosaic.ValueIdx Cert.Moe

/-- The 32-bit word 0x3F800000 denotes the number one. -/
theorem one_word : Ideal.ofBits .f32 0x3F800000#32 = 1 := by
  simp [Ideal.ofBits, Ideal.ieee, -EReal.coe_mul]; norm_num

section stages

variable (x0 : (⟨S4096x2048, .f32⟩ : BufTy).Contents (Elt Ideal)) (x1 : (⟨S8x2816x2048, .f32⟩ : BufTy).Contents (Elt Ideal))
  (x2 : (⟨S8x2048x1408, .f32⟩ : BufTy).Contents (Elt Ideal))

/-- The first product at expert e, output column n, token m: row m against expert e's first weights at n. -/
theorem v0_at (e : Fin 8) (n : Fin 2816) (m : Fin 4096) :
    val_main_v0 (F := Ideal) x0 x1 (ix3 e n m)
      = h1row (fun k => x0 (ix2 m k)) (fun n k => x1 (ix3 e n k)) n := by
  rw [val_main_v0_apply]
  unfold h1row
  refine Finset.sum_congr rfl fun k _ => ?_
  have el : lidx_main_v0 (ix3 e n m) k = ix3 e n k := funext fun a => Fin.ext (by
    match a with
    | ⟨0, _⟩ => rfl
    | ⟨1, _⟩ => rfl
    | ⟨2, _⟩ => rfl)
  have er : ridx_main_v0 (ix3 e n m) k = ix2 m k := funext fun a => Fin.ext (by
    match a with
    | ⟨0, _⟩ => rfl
    | ⟨1, _⟩ => rfl)
  rw [el, er, mul_comm]

/-- The transposed first product at expert e, token m, column n. -/
theorem v1_at (e : Fin 8) (m : Fin 4096) (n : Fin 2816) :
    val_main_v1 (F := Ideal) x0 x1 (ix3 e m n)
      = h1row (fun k => x0 (ix2 m k)) (fun n k => x1 (ix3 e n k)) n := by
  have ei : idx_main_v1 (ix3 e m n) = ix3 e n m := funext fun a => Fin.ext (by
    match a with
    | ⟨0, _⟩ => rfl
    | ⟨1, _⟩ => rfl
    | ⟨2, _⟩ => rfl)
  rw [val_main_v1_apply, ei, v0_at]

/-- The first half of the first product: the gate columns. -/
theorem v2_at (e : Fin 8) (m : Fin 4096) (j : Fin 1408) :
    val_main_v2 (F := Ideal) x0 x1 (ix3 e m j)
      = h1row (fun k => x0 (ix2 m k)) (fun n k => x1 (ix3 e n k)) (gateIx j) := by
  have ei : idx_main_v2 (ix3 e m j) = ix3 e m (gateIx j) := funext fun a => Fin.ext (by
    match a with
    | ⟨0, _⟩ => rfl
    | ⟨1, _⟩ => rfl
    | ⟨2, _⟩ => rfl)
  rw [val_main_v2_apply, ei, v1_at]

/-- The second half of the first product: the linear-factor columns. -/
theorem v3_at (e : Fin 8) (m : Fin 4096) (j : Fin 1408) :
    val_main_v3 (F := Ideal) x0 x1 (ix3 e m j)
      = h1row (fun k => x0 (ix2 m k)) (fun n k => x1 (ix3 e n k)) (upIx j) := by
  have ei : idx_main_v3 (ix3 e m j) = ix3 e m (upIx j) := funext fun a => Fin.ext (by
    match a with
    | ⟨0, _⟩ => rfl
    | ⟨1, _⟩ => rfl
    | ⟨2, _⟩ => rfl)
  rw [val_main_v3_apply, ei, v1_at]

/-- The gate passed through t * (1 / (1 + exp (-t))) is silu of the gate. -/
theorem v4_at (e : Fin 8) (m : Fin 4096) (j : Fin 1408) :
    val_main_v4 (F := Ideal) x0 x1 (ix3 e m j)
      = silu (h1row (fun k => x0 (ix2 m k)) (fun n k => x1 (ix3 e n k)) (gateIx j)) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, v2_at]
  simp only [Ideal.mulf_def, Ideal.addf_def, Ideal.hostDivf_def, Ideal.hostUnary_exp_def, Ideal.hostNegf_def,
    Ideal.negf_def, Ideal.ofBits_def, one_word]
  rfl

/-- The gated activation at expert e, token m, column j. -/
theorem v5_at (e : Fin 8) (m : Fin 4096) (j : Fin 1408) :
    val_main_v5 (F := Ideal) x0 x1 (ix3 e m j)
      = actrow (fun k => x0 (ix2 m k)) (fun n k => x1 (ix3 e n k)) j := by
  rw [val_main_v5_apply, v4_at, v3_at]
  simp only [Ideal.mulf_def]
  rfl

/-- The second product at expert e, token m, output column c. -/
theorem v6_at (e : Fin 8) (m : Fin 4096) (c : Fin 2048) :
    val_main_v6 (F := Ideal) x0 x1 x2 (ix3 e m c)
      = yrow (fun k => x0 (ix2 m k)) (fun n k => x1 (ix3 e n k)) (fun c' j => x2 (ix3 e c' j)) c := by
  rw [val_main_v6_apply]
  unfold yrow
  refine Finset.sum_congr rfl fun j _ => ?_
  have el : lidx_main_v6 (ix3 e m c) j = ix3 e m j := funext fun a => Fin.ext (by
    match a with
    | ⟨0, _⟩ => rfl
    | ⟨1, _⟩ => rfl
    | ⟨2, _⟩ => rfl)
  have er : ridx_main_v6 (ix3 e m c) j = ix3 e c j := funext fun a => Fin.ext (by
    match a with
    | ⟨0, _⟩ => rfl
    | ⟨1, _⟩ => rfl
    | ⟨2, _⟩ => rfl)
  rw [el, er, v5_at]

end stages

/-- The experts' outputs in token-major order, read at an index. -/
theorem v7_apply (x0 : (⟨S4096x2048, .f32⟩ : BufTy).Contents (Elt Ideal)) (x1 : (⟨S8x2816x2048, .f32⟩ : BufTy).Contents (Elt Ideal)) (x2 : (⟨S8x2048x1408, .f32⟩ : BufTy).Contents (Elt Ideal))
    (m : Fin 4096) (e : Fin 8) (c : Fin 2048) :
    val_main_v7 (F := Ideal) x0 x1 x2 (ix3 m e c)
      = yrow (fun k => x0 (ix2 m k)) (fun n k => x1 (ix3 e n k)) (fun c' j => x2 (ix3 e c' j)) c := by
  have ei : idx_main_v7 (ix3 m e c) = ix3 e m c := funext fun a => Fin.ext (by
    match a with
    | ⟨0, _⟩ => rfl
    | ⟨1, _⟩ => rfl
    | ⟨2, _⟩ => rfl)
  rw [val_main_v7_apply, ei, v6_at]

end Cert.ReferenceIdeal.RStage

end
-- ==== Proof.RValue.lean ====
/-
  The reference's result as the slot-by-slot function of the argument arrays, for expert words in 0 … 7: the take along the
  expert axis (a word below zero shifted by eight, an out-of-range word filled) reads, for an in-range word, the named expert's
  output; each slot's reading is scaled by the slot's weight and the two slots are added onto zero.
-/
import proofs.«402619_j34265249087924_1_alg».proof.Proof.RefRead
import proofs.«402619_j34265249087924_1_alg».proof.Proof.RStage
import proofs.«402619_j34265249087924_1_alg».proof.Proof.MoeSpec
import Idealize.ShloMosaic.Lib.ValueIdx
import Idealize.ShloMosaic.Lib.Pipeline.Value
import Idealize.ShloMosaic.Lib.ReduceAll
import Idealize.ShloMosaic.PureOps.Ideal.Laws

noncomputable section

open scoped BigOperators

namespace Cert.ReferenceIdeal.RValue

open Cert.ReferenceIdeal Cert.ReferenceIdeal.Gen Cert.ReferenceIdeal.ReadP Idealize.ShloMosaic Idealize.ShloMosaic.ValueIdx Cert.Moe

/-! ## Words: a 32-bit word whose signed reading is one of 0 … 7 -/

/-- Such a word, read unsigned, is below eight. -/
theorem word_toNat {w : BitVec 32} (h0 : 0 ≤ w.toInt) (h8 : w.toInt < 8) : w.toNat < 8 := by
  rw [BitVec.toInt_eq_toNat_cond] at h0 h8
  split at h0 <;> omega

/-- A word that is not negative is not below zero. -/
theorem slt_zero {w : BitVec 32} (h0 : 0 ≤ w.toInt) : IntOp.cmpi .slt w 0#32 = 0#1 := by
  have hz : (0#32 : BitVec 32).toInt = 0 := by decide
  unfold IntOp.cmpi
  simp only [BitVec.slt, hz]
  rw [decide_eq_false (by omega)]; rfl

/-- A word that is not negative is at least zero. -/
theorem sge_zero {w : BitVec 32} (h0 : 0 ≤ w.toInt) : IntOp.cmpi .sge w 0#32 = 1#1 := by
  have hz : (0#32 : BitVec 32).toInt = 0 := by decide
  unfold IntOp.cmpi
  simp only [BitVec.sle, hz]
  rw [decide_eq_true (by omega)]; rfl

/-- A word below eight is at most seven. -/
theorem sle_seven {w : BitVec 32} (h8 : w.toInt < 8) : IntOp.cmpi .sle w 7#32 = 1#1 := by
  have hz : (7#32 : BitVec 32).toInt = 7 := by decide
  unfold IntOp.cmpi
  simp only [BitVec.sle, hz]
  rw [decide_eq_true (by omega)]; rfl

/-- The signed reading of such a word, clamped into 0 … 7, is the expert the word names. -/
theorem clamp_eq_expertOf {w : BitVec 32} (h0 : 0 ≤ w.toInt) (h8 : w.toInt < 8) (h : min w.toInt.toNat 7 < 8) :
    (⟨min w.toInt.toNat 7, h⟩ : Fin 8) = expertOf w := by
  refine Fin.ext ?_
  show min w.toInt.toNat 7 = w.toNat % 8
  have hn := word_toNat h0 h8
  have hi : w.toInt = (w.toNat : Int) := by
    rw [BitVec.toInt_eq_toNat_cond]; split <;> omega
  have ht : w.toInt.toNat = w.toNat := by rw [hi]; exact Int.toNat_natCast _
  rw [ht]; omega

/-- The same for a word given as equal to such a word. -/
theorem clamp_eq_expertOf_of_eq {v w : BitVec 32} (hv : v = w) (h0 : 0 ≤ w.toInt) (h8 : w.toInt < 8) (h : min v.toInt.toNat 7 < 8) :
    (⟨min v.toInt.toNat 7, h⟩ : Fin 8) = expertOf w := by
  subst hv; exact clamp_eq_expertOf h0 h8 h

/-- The conjunction of one-bit words that are all one, started from one, is one. -/
theorem fold_andi_one {ι : Type} (S : Finset ι) : S.fold IntOp.andi 1#1 (fun _ => 1#1) = 1#1 := by
  induction S using Finset.cons_induction with
  | empty => rfl
  | cons a s ha ih => rw [Finset.fold_cons, ih]; rfl

/-! ## The index arithmetic of the take, for words in 0 … 7 -/

section Range
variable (x4 : (⟨S4096x2, .i32⟩ : BufTy).Contents (Elt Ideal)) (hr : ∀ i, 0 ≤ (x4 i).toInt ∧ (x4 i).toInt < 8)
include hr

/-- A word that is not negative is not shifted: the start index is the word itself. -/
theorem v4_eq (j : S4096x2x1.Idx) : val_main_call1_v4 (F := Ideal) x4 j = x4 (idx_main_v8 j) := by
  rw [val_main_call1_v4_apply, val_main_call1_v1_apply, val_main_call1_v0_apply, val_main_call1_c_apply, val_main_v8_apply,
    slt_zero (hr (idx_main_v8 j)).1, select_zero]

/-- The word is in range: at least zero and at most seven. -/
theorem v10_one (j : S4096x2x1.Idx) : val_main_call1_v10 (F := Ideal) x4 j = 1#1 := by
  rw [val_main_call1_v10_apply, val_main_call1_v6_apply, val_main_call1_v9_apply, v4_eq x4 hr j,
    val_main_call1_v5_apply, val_main_call1_c_2_apply, val_main_call1_v8_apply, val_main_call1_v7_apply, val_main_call1_c_1_apply,
    sge_zero (hr (idx_main_v8 j)).1, sle_seven (hr (idx_main_v8 j)).2]
  rfl

/-- The in-range bit of every slot, the conjunction over the trailing axis of extent one, is one. -/
theorem v11_one (j : S4096x2.Idx) : val_main_call1_v11 (F := Ideal) x4 j = 1#1 := by
  unfold val_main_call1_v11
  rw [Host.reduce_eq_fold_single IntOp.andi _ _ reducesTo_S4096x2x1_S4096x2_d2 (by decide) h_S_ j, val_main_call1_c_3_apply]
  have hf : ∀ g : Fin (S4096x2x1.size 2) → S4096x2x1.Idx, (val_main_call1_v10 (F := Ideal) x4 ∘ g) = fun _ => 1#1 :=
    fun g => funext fun k => v10_one x4 hr (g k)
  rw [hf]
  exact fold_andi_one _

end Range

/-! ## The take: the operand at (row, clamped word, column) -/

local notation "G" => gather_S4096x8x2048_S4096x2x1_S4096x2x2048_2_1_0_0_1_2_112048

/-- The gather read at (m, s, c): the operand at row m, at the start index of (m, s) read signed and clamped into 0 … 7, at
    column c. -/
theorem gather_read {α : Type} (x : S4096x8x2048.Idx → α) (idx : IVec S4096x2x1 32) (m : Fin 4096) (s : Fin 2) (c : Fin 2048) :
    Host.gather G x idx (ix3 m s c)
      = x (ix3 m ⟨min (idx (ix3 m s (0 : Fin 1))).toInt.toNat 7, by omega⟩ c) := by
  unfold Host.gather
  congr 1
  funext a
  refine Fin.ext ?_
  match a with
  | ⟨0, h0⟩ =>
    show GatherDims.start _ _ _ _ + GatherDims.batchCoord _ _ _ + GatherDims.offCoord _ _ _ = _
    have hb : (⟨0, h0⟩ : Fin S4096x8x2048.rank) ∈ (GatherDims.operandBatchingDims G) := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    show GatherDims.start _ _ _ _ + GatherDims.batchCoord _ _ _ + GatherDims.offCoord _ _ _ = _
    have hc : (⟨1, h1⟩ : Fin S4096x8x2048.rank) ∈ (GatherDims.collapsedSliceDims G) := List.mem_singleton.mpr rfl
    have hnb : ¬ (⟨1, h1⟩ : Fin S4096x8x2048.rank) ∈ (GatherDims.operandBatchingDims G) :=
      (show ¬ (1 : Fin S4096x8x2048.rank) ∈ (GatherDims.operandBatchingDims G) by decide)
    have hm : (⟨1, h1⟩ : Fin S4096x8x2048.rank) ∈ (GatherDims.startIndexMap G) := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : GatherDims.siIdx G (ix3 m s c) ⟨List.idxOf (⟨1, h1⟩ : Fin S4096x8x2048.rank) (GatherDims.startIndexMap G),
        List.idxOf_lt_length_iff.2 hm⟩ = ix3 m s (0 : Fin 1) := by
      funext b; refine Fin.ext ?_
      match b with
      | ⟨0, _⟩ => rfl
      | ⟨1, _⟩ => rfl
      | ⟨2, _⟩ => rfl
    rw [hsi]
    rfl
  | ⟨2, h2⟩ =>
    show GatherDims.start _ _ _ _ + GatherDims.batchCoord _ _ _ + GatherDims.offCoord _ _ _ = _
    have hnb : ¬ (⟨2, h2⟩ : Fin S4096x8x2048.rank) ∈ (GatherDims.operandBatchingDims G) :=
      (show ¬ (2 : Fin S4096x8x2048.rank) ∈ (GatherDims.operandBatchingDims G) by decide)
    have hnm : ¬ (⟨2, h2⟩ : Fin S4096x8x2048.rank) ∈ (GatherDims.startIndexMap G) :=
      (show ¬ (2 : Fin S4096x8x2048.rank) ∈ (GatherDims.startIndexMap G) by decide)
    have hk : (⟨2, h2⟩ : Fin S4096x8x2048.rank) ∈ (GatherDims.sKept G) := (GatherDims.mem_sKept _ _).mpr ⟨(show ¬ (2 : Fin S4096x8x2048.rank) ∈ (GatherDims.collapsedSliceDims G) by decide), hnb⟩
    rw [GatherDims.batchCoord_eq_zero _ _ _ hnb]
    unfold GatherDims.start GatherDims.offCoord
    rw [dif_neg hnm, dif_pos hk]
    simp only [Nat.zero_add, Nat.add_zero]
    rfl

/-! ## The result -/

/-- THE REFERENCE'S RESULT is the slot-by-slot function, when every expert word is one of 0 … 7. -/
theorem result_eq (x0 : (⟨S4096x2048, .f32⟩ : BufTy).Contents (Elt Ideal)) (x1 : (⟨S8x2816x2048, .f32⟩ : BufTy).Contents (Elt Ideal)) (x2 : (⟨S8x2048x1408, .f32⟩ : BufTy).Contents (Elt Ideal))
    (x3 : (⟨S4096x2, .f32⟩ : BufTy).Contents (Elt Ideal)) (x4 : (⟨S4096x2, .i32⟩ : BufTy).Contents (Elt Ideal))
    (hr : ∀ i, 0 ≤ (x4 i).toInt ∧ (x4 i).toInt < 8) :
    val_main_v13 (F := Ideal) x0 x1 x2 x3 x4 = OutR x0 x1 x2 x3 x4 := by
  funext i
  obtain ⟨m, c, rfl⟩ : ∃ m c, i = ix2 m c := ⟨i 0, i 1, eq_ix2 i⟩
  rw [val_main_v13_apply, val_main_cst_apply]
  show Ideal.ofBits .f32 0x00000000#32 + _ = 0 + ∑ s : Fin 2,
    yrow (fun k => x0 (ix2 m k)) (fun n k => x1 (ix3 (expertOf (x4 (ix2 m s))) n k))
      (fun c' j => x2 (ix3 (expertOf (x4 (ix2 m s))) c' j)) c * x3 (ix2 m s)
  rw [Ideal.ofBits_zero_f32]
  refine congrArg (0 + ·) (Finset.sum_congr rfl fun s _ => ?_)
  have hi : idx_main_v13 (ix2 m c) s = ix3 m s c := by
    funext a; match a with | ⟨0, _⟩ => rfl | ⟨1, _⟩ => rfl | ⟨2, _⟩ => rfl
  have hw : idx_main_v8 (ix3 m s (0 : Fin 1)) = ix2 m s := by
    funext a; match a with | ⟨0, _⟩ => rfl | ⟨1, _⟩ => rfl
  have hq : idx_main_v10 (idx_main_v11 (ix3 m s c)) = ix2 m s := by
    funext a; match a with | ⟨0, _⟩ => rfl | ⟨1, _⟩ => rfl
  rw [hi, val_main_v12_apply, val_main_v9_apply, val_main_call1_v13_apply, v11_one x4 hr, select_one,
    val_main_v11_apply, val_main_v10_apply, hq]
  show val_main_call1_v12 (F := Ideal) x0 x1 x2 x4 (ix3 m s c) * x3 (ix2 m s) = _
  unfold val_main_call1_v12
  have hv : val_main_call1_v4 (F := Ideal) x4 (ix3 m s (0 : Fin 1)) = x4 (ix2 m s) := by rw [v4_eq x4 hr, hw]
  rw [gather_read, clamp_eq_expertOf_of_eq hv (hr (ix2 m s)).1 (hr (ix2 m s)).2, RStage.v7_apply]

end Cert.ReferenceIdeal.RValue

end
-- ==== Proof.lean ====
/-
  The certificate of a mixture-of-experts layer: eight gated two-layer experts over 4096 token rows, each row routed to two
  expert numbers with two weights. The kernel walks a grid of 32 row tiles by 8 experts and accumulates, expert by expert, the
  expert's output times the total weight of the slots that name it; the reference computes all experts' outputs, takes for each
  slot the output of the expert it names, scales by the slot's weight and adds the two slots. Over real entries and expert
  numbers in 0 … 7 the two are one function of the arguments (Proof/MoeLaw.lean); the kernel's side of that function is read off
  its frame run (Proof/KValue.lean), the reference's off its run one operation at a time (Proof/RValue.lean), and the domain off
  the precondition (Proof/PreFacts.lean).
-/
import proofs.«402619_j34265249087924_1_alg».proof.Defs
import proofs.«402619_j34265249087924_1_alg».proof.Proof.Gen.Kernel
import proofs.«402619_j34265249087924_1_alg».proof.Proof.Gen.Kernel.Skeleton
import proofs.«402619_j34265249087924_1_alg».proof.Proof.Gen.Kernel.Launch
import proofs.«402619_j34265249087924_1_alg».proof.Proof.Gen.Kernel.Points
import proofs.«402619_j34265249087924_1_alg».proof.Proof.Gen.Kernel.Frame
import proofs.«402619_j34265249087924_1_alg».proof.Proof.Gen.KernelIdeal
import proofs.«402619_j34265249087924_1_alg».proof.Proof.Gen.KernelIdeal.Skeleton
import proofs.«402619_j34265249087924_1_alg».proof.Proof.Gen.KernelIdeal.Launch
import proofs.«402619_j34265249087924_1_alg».proof.Proof.Gen.KernelIdeal.Points
import proofs.«402619_j34265249087924_1_alg».proof.Proof.Gen.KernelIdeal.Frame
import proofs.«402619_j34265249087924_1_alg».proof.Proof.Gen.ReferenceIdeal
import proofs.«402619_j34265249087924_1_alg».proof.Proof.Gen.Pre_finite_inputs
import proofs.«402619_j34265249087924_1_alg».proof.Proof.Gen.KernelIdeal.Value
import proofs.«402619_j34265249087924_1_alg».proof.Proof.RefRun
import proofs.«402619_j34265249087924_1_alg».proof.Proof.RefRead
import proofs.«402619_j34265249087924_1_alg».proof.Proof.MoeSpec
import proofs.«402619_j34265249087924_1_alg».proof.Proof.MoeLaw
import proofs.«402619_j34265249087924_1_alg».proof.Proof.PreFacts
import proofs.«402619_j34265249087924_1_alg».proof.Proof.KValue
import proofs.«402619_j34265249087924_1_alg».proof.Proof.RValue
import Idealize.ShloMosaic.Adequacy
import Idealize.ShloMosaic.Init

noncomputable section

namespace Cert.Proof

open Idealize.ShloMosaic Idealize.SL.Sem

section Claims

variable [hPre : Cert.Pre_finite_inputs.Facts]

theorem frame_k [Cert.Kernel.Facts] : Cert.frame_Kernel := fun m ρ _ => Cert.Kernel.Gen.frame m ρ

theorem frame_ki [Cert.KernelIdeal.Facts] : Cert.frame_KernelIdeal := fun m ρ _ => Cert.KernelIdeal.Gen.frame m ρ

theorem frame_ri [Cert.ReferenceIdeal.Facts] : Cert.frame_ReferenceIdeal := fun m ρ _ =>
  (θ_run Cert.ReferenceIdeal.defs _ _).mono (fun _ h c => (h c).2) (Cert.ReferenceIdeal.RunP.run (F := Ideal) m ρ)

/-- From memories that agree on the arguments, in the precondition's domain, both programs end with the expert-by-expert
    function of the arguments: the kernel by its run, the reference by its run, its stages and the law. -/
theorem algebraic [Cert.KernelIdeal.Facts] [Cert.ReferenceIdeal.Facts] : Cert.algebraic_KernelIdeal_ReferenceIdeal := by
  intro m ρ m' ρ' hpre hagree
  have hdom := fun c => Cert.PreFacts.inDomain_of_pre _ _ _ _ _ (hpre c)
  refine ⟨_, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v13_eq, (hagree c).1, (hagree c).2.1, (hagree c).2.2.1, (hagree c).2.2.2.1, (hagree c).2.2.2.2,
    Cert.ReferenceIdeal.RValue.result_eq _ _ _ _ _ (hdom c).ids_range]
  exact (Cert.Moe.law _ _ _ _ _ (hdom c)).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
